-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x512 : Shape := ⟨2, ![16384, 512]⟩
abbrev S16384x256 : Shape := ⟨2, ![16384, 256]⟩
abbrev S512x64 : Shape := ⟨2, ![512, 64]⟩
abbrev S512 : Shape := ⟨1, ![512]⟩
abbrev S512x512 : Shape := ⟨2, ![512, 512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S64x512 : Shape := ⟨2, ![64, 512]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x256 : S_.BroadcastsInDim S16384x256 (![] : Fin 0 → Fin S16384x256.rank)
  reducesTo_S16384x256_S_d0_1 : S16384x256.ReducesTo [0, 1] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg21 : FVec F S64 .f32) (main_v98 : IVec S_ 1) (main_v101 : IVec S64x512 1) (main_c_39 : IVec S_ 1) : IVec S_ 1 :=
  let main_v102 : IVec S_ 1 := (fun x v => Host.reduce IntOp.andi x v reducesTo_S64x512_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg18 : FVec F S512x512 .f32) (main_arg19 : FVec F S512 .f32) (main_arg20 : FVec F S64x512 .f32) (main_arg21 : FVec F S64 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S64x512 .f32 := Host.absf main_arg20
  let main_cst_38 : FVec F S_ .f32 := constant S_ .f32 0x7F800000#32
  let main_v100 : FVec F S64x512 .f32 := broadcastInDim S64x512 ![] bcast_S_S64x512 main_cst_38
  let main_v101 : IVec S64x512 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S512x256 .f32) (main_arg15 : FVec F S512 .f32) (main_arg16 : FVec F S512x512 .f32) (main_arg17 : FVec F S512 .f32) (main_arg18 : FVec F S512x512 .f32) (main_arg19 : FVec F S512 .f32) (main_arg20 : FVec F S64x512 .f32) (main_arg21 : FVec F S64 .f32) (main_v63 : IVec S_ 1) (main_v67 : IVec S_ 1) : IVec S_ 1 :=
  let main_v68 : IVec S_ 1 := andi main_v63 main_v67
  let main_v69 : FVec F S512x256 .f32 := Host.absf main_arg14
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S256 .f32) (main_arg12 : FVec F S256x256 .f32) (main_arg13 : FVec F S256 .f32) (main_arg14 : FVec F S512x256 .f32) (main_arg15 : FVec F S512 .f32) (main_arg16 : FVec F S512x512 .f32) (main_arg17 : FVec F S512 .f32) (main_arg18 : FVec F S512x512 .f32) (main_arg19 : FVec F S512 .f32) (main_arg20 : FVec F S64x512 .f32) (main_arg21 : FVec F S64 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S512 .f32) (main_arg8 : FVec F S512x512 .f32) (main_arg9 : FVec F S512 .f32) (main_arg10 : FVec F S256x512 .f32) (main_arg11 : FVec F S256 .f32) (main_arg12 : FVec F S256x256 .f32) (main_arg13 : FVec F S256 .f32) (main_arg14 : FVec F S512x256 .f32) (main_arg15 : FVec F S512 .f32) (main_arg16 : FVec F S512x512 .f32) (main_arg17 : FVec F S512 .f32) (main_arg18 : FVec F S512x512 .f32) (main_arg19 : FVec F S512 .f32) (main_arg20 : FVec F S64x512 .f32) (main_arg21 : FVec F S64 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S512x64 .f32) (main_arg5 : FVec F S512 .f32) (main_arg6 : FVec F S512x512 .f32) (main_arg7 : FVec F S512 .f32) (main_arg8 : FVec F S512x512 .f32) (main_arg9 : FVec F S512 .f32) (main_arg10 : FVec F S256x512 .f32) (main_arg11 : FVec F S256 .f32) (main_arg12 : FVec F S256x256 .f32) (main_arg13 : FVec F S256 .f32) (main_arg14 : FVec F S512x256 .f32) (main_arg15 : FVec F S512 .f32) (main_arg16 : FVec F S512x512 .f32) (main_arg17 : FVec F S512 .f32) (main_arg18 : FVec F S512x512 .f32) (main_arg19 : FVec F S512 .f32) (main_arg20 : FVec F S64x512 .f32) (main_arg21 : FVec F S64 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16384x64 .f32) (main_arg1 : FVec F S16384x512 .f32) (main_arg2 : FVec F S16384x512 .f32) (main_arg3 : FVec F S16384x256 .f32) (main_arg4 : FVec F S512x64 .f32) (main_arg5 : FVec F S512 .f32) (main_arg6 : FVec F S512x512 .f32) (main_arg7 : FVec F S512 .f32) (main_arg8 : FVec F S512x512 .f32) (main_arg9 : FVec F S512 .f32) (main_arg10 : FVec F S256x512 .f32) (main_arg11 : FVec F S256 .f32) (main_arg12 : FVec F S256x256 .f32) (main_arg13 : FVec F S256 .f32) (main_arg14 : FVec F S512x256 .f32) (main_arg15 : FVec F S512 .f32) (main_arg16 : FVec F S512x512 .f32) (main_arg17 : FVec F S512 .f32) (main_arg18 : FVec F S512x512 .f32) (main_arg19 : FVec F S512 .f32) (main_arg20 : FVec F S64x512 .f32) (main_arg21 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x64 : Shape := ⟨2, ![16384, 64]⟩
abbrev S16384x512 : Shape := ⟨2, ![16384, 512]⟩
abbrev S16384x256 : Shape := ⟨2, ![16384, 256]⟩
abbrev S512x64 : Shape := ⟨2, ![512, 64]⟩
abbrev S512 : Shape := ⟨1, ![512]⟩
abbrev S512x512 : Shape := ⟨2, ![512, 512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S64x512 : Shape := ⟨2, ![64, 512]⟩
abbrev S64 : Shape := ⟨1, ![64]⟩
abbrev S1280x512 : Shape := ⟨2, ![1280, 512]⟩
abbrev S1x512 : Shape := ⟨2, ![1, 512]⟩
abbrev S1x64 : Shape := ⟨2, ![1, 64]⟩
abbrev S1024x512 : Shape := ⟨2, ![1024, 512]⟩
abbrev S1024x256 : Shape := ⟨2, ![1024, 256]⟩
abbrev S1024x64 : Shape := ⟨2, ![1024, 64]⟩
abbrev S1024x1280 : Shape := ⟨2, ![1024, 1280]⟩

abbrev nBuf : Space → Nat
  | .hbm => 37
  | .vmem => 18
  | .smem => 0
  | _ => 0

abbrev bufTy : (tb : Table) → Fin (tcTables nBuf tb) → BufTy
  | .hbm, ⟨0, _⟩ => ⟨S16384x64, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S512x64, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S256x512, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S512x256, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S64x512, .f32⟩
  | .hbm, ⟨21, _⟩ => ⟨S64, .f32⟩
  | .hbm, ⟨22, _⟩ => ⟨S512x512, .f32⟩
  | .hbm, ⟨23, _⟩ => ⟨S256x512, .f32⟩
  | .hbm, ⟨24, _⟩ => ⟨S512x512, .f32⟩
  | .hbm, ⟨25, _⟩ => ⟨S1280x512, .f32⟩
  | .hbm, ⟨26, _⟩ => ⟨S1280x512, .bf16⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S512x64, .f32⟩
  | .hbm, ⟨31, _⟩ => ⟨S512x64, .bf16⟩
  | .hbm, ⟨32, _⟩ => ⟨S1x64, .f32⟩
  | .hbm, ⟨33, _⟩ => ⟨S16384x64, .f32⟩
  | .hbm, ⟨34, _⟩ => ⟨S16384x512, .f32⟩
  | .hbm, ⟨35, _⟩ => ⟨S16384x512, .f32⟩
  | .hbm, ⟨36, _⟩ => ⟨S16384x256, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x256, .f32⟩
  | .local _ .vmem, ⟨5, _⟩ => ⟨S1024x256, .f32⟩
  | .local _ .vmem, ⟨6, _⟩ => ⟨S1280x512, .bf16⟩
  | .local _ .vmem, ⟨7, _⟩ => ⟨S1x512, .f32⟩
  | .local _ .vmem, ⟨8, _⟩ => ⟨S512x64, .bf16⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x256, .f32⟩
  | .local _ .vmem, ⟨17, _⟩ => ⟨S1024x256, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11_0 : Ref sig .tc := ⟨.hbm, 33, rfl⟩
abbrev main_v11_1 : Ref sig .tc := ⟨.hbm, 34, rfl⟩
abbrev main_v11_2 : Ref sig .tc := ⟨.hbm, 35, rfl⟩
abbrev main_v11_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S512x512_S512x512_1_0 : S512x512.Transposes [1, 0] S512x512
  transposes_S512x256_S256x512_1_0 : S512x256.Transposes [1, 0] S256x512
  concatenates_S512x512_S256x512_S512x512_S1280x512_d0 : Shape.Concatenates [S512x512, S256x512, S512x512] S1280x512 0
  bitsLt_bf16_f32 : FTy.bits .bf16 < FTy.bits .f32
  shapeCasts_S512_S1x512 : S512.ShapeCasts S1x512
  transposes_S64x512_S512x64_1_0 : S64x512.Transposes [1, 0] S512x64
  shapeCasts_S64_S1x64 : S64.ShapeCasts S1x64
  inb_S1024x512_S1024x512_0_0 : ∀ a, (![0, 0] : Fin 2 → Nat) a + S1024x512.size a ≤ S1024x512.size a
  h_S1024x512 : 0 < S1024x512.numel
  inb_S1024x256_S1024x256_0_0 : ∀ a, (![0, 0] : Fin 2 → Nat) a + S1024x256.size a ≤ S1024x256.size a
  h_S1024x256 : 0 < S1024x256.numel
  concatenates_S1024x512_S1024x256_S1024x512_S1024x1280_d1 : Shape.Concatenates [S1024x512, S1024x256, S1024x512] S1024x1280 1
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x1280_S1280x512_S1024x512_1_0_0_1_n_n_wf : DotDims.WF S1024x1280 S1280x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S1280x512.size a
  hwx0_3 : ∀ i : grid0.Coords, EltTy.bits .bf16 = 32 ∨ (Rect.block (s := S1280x512) S1280x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .bf16 = 32 ∨ (Rect.block (s := S512x64) S512x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S16384x64.size a
  hwx0_7 : ∀ i : grid0.Coords, EltTy.bits .f32 = 32 ∨ (Rect.block (s := S16384x64) S1024x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .f32 = 32 ∨ (Rect.block (s := S16384x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S16384x256.size a
  hwx0_10 : ∀ i : grid0.Coords, EltTy.bits .f32 = 32 ∨ (Rect.block (s := S16384x256) S1024x256.size (cc0_transform_10 i) (hinb0_10 i)).WholeWords (EltTy.packing .f32)

variable [Facts₀]

def dot_S1024x1280_S1280x512_S1024x512_1_0_0_1_n_n : DotDims S1024x1280 S1280x512 S1024x512 where
  lhsContracting := [1]
  rhsContracting := [0]
  lhsNonContracting := [0]
  rhsNonContracting := [1]
  lhsBatch := []
  rhsBatch := []
  wf := dot_S1024x1280_S1280x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1280x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_3) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x512 : Shape := ⟨2, ![16384, 512]⟩
abbrev S16384x256 : Shape := ⟨2, ![16384, 256]⟩
abbrev S512x64 : Shape := ⟨2, ![512, 64]⟩
abbrev S512 : Shape := ⟨1, ![512]⟩
abbrev S512x512 : Shape := ⟨2, ![512, 512]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S64x512 : Shape := ⟨2, ![64, 512]⟩
abbrev S64 : Shape := ⟨1, ![64]⟩
abbrev S_ : Shape := ⟨0, ![]⟩
abbrev S1x512 : Shape := ⟨2, ![1, 512]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S512x64, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S256x512, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S512x256, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S64x512, .f32⟩
  | .hbm, ⟨21, _⟩ => ⟨S64, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S512x512, .f32⟩
  | .hbm, ⟨26, _⟩ => ⟨S16384x512, .f32⟩
  | .hbm, ⟨27, _⟩ => ⟨S1x512, .f32⟩
  | .hbm, ⟨28, _⟩ => ⟨S16384x512, .f32⟩
  | .hbm, ⟨29, _⟩ => ⟨S16384x512, .f32⟩
  | .hbm, ⟨30, _⟩ => ⟨S256x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S512x512, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S512x64, .f32⟩
  | .hbm, ⟨47, _⟩ => ⟨S16384x64, .f32⟩
  | .hbm, ⟨48, _⟩ => ⟨S1x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384x512, .f32⟩
  | .hbm, ⟨67, _⟩ => ⟨S16384x512, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384x256, .f32⟩
  | .hbm, ⟨72, _⟩ => ⟨S16384x256, .f32⟩
  | .hbm, ⟨73, _⟩ => ⟨S_, .f32⟩
  | .hbm, ⟨74, _⟩ => ⟨S16384x256, .f32⟩
  | .hbm, ⟨75, _⟩ => ⟨S16384x256, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_1 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S512x256_S256x512_1_0 : S512x256.Transposes [1, 0] S256x512
  transposes_S64x512_S512x64_1_0 : S64x512.Transposes [1, 0] S512x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x256 : S_.BroadcastsInDim S16384x256 (![] : Fin 0 → Fin S16384x256.rank)
  dot_S16384x512_S512x512_S16384x512_1_0_0_1_n_n_wf : DotDims.WF S16384x512 S512x512 S16384x512 [1] [0] [0] [1] [] []
  dot_S16384x256_S256x512_S16384x512_1_0_0_1_n_n_wf : DotDims.WF S16384x256 S256x512 S16384x512 [1] [0] [0] [1] [] []
  dot_S16384x512_S512x64_S16384x64_1_0_0_1_n_n_wf : DotDims.WF S16384x512 S512x64 S16384x64 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf

class Facts : Prop extends Facts₀ where

variable [Facts]
-- ==== Proof.KFrame.lean ====
/- The frame of the word-level kernel program: one TensorCore region on a grid of 16 points, entered after
   eleven host operations (three transposes, their concatenation along the rows, two conversions to bf16, two
   additions, two reshapes and one more transpose). This module states what the buffers hold when the region is
   entered, what each window's block is at a grid point, what the body leaves in the four output buffers as a
   function of the seven input blocks, and runs the launch theorem to obtain that every argument array ends as it
   was launched. -/
import proofs.«425039_j46299747451485_3_alg».proof.Proof.Gen.Kernel.Launch
import proofs.«425039_j46299747451485_3_alg».proof.Proof.Gen.Kernel.Skeleton
import proofs.«425039_j46299747451485_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffer `b` holds once the eleven host operations have run over the launch memory `m`:
    the launch contents folded through the operations in order. -/
abbrev V (c : Dev nD) (b : Ref sig .tc) : Buf (Elt F) ((c : Thread nD τ).loc b) :=
  StableHlo.after hostOps0 (fun b => m (c, b)) b

/-- None of the eleven operations allocates: each writes a buffer the signature already names. -/
theorem hostOps0_fresh : (hostOps0 : List (HloOp τ sig (Elt F))).Forall fun op => op.fresh = ∅ := by
  simp only [List.Forall]; repeat' constructor

/-- The entry function is the eleven operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Every host operation writes one of the temporaries `main_v0` … `main_v10` (buffers 22 to 32), never an
    argument (buffers 0 to 21): so each argument array is, at the region's entry, what was launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- The block of window `w` at grid point `t`: the window's rectangle there, read off the window's array as the
    region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block when the body is called, whether the pipeline
    fetched it at that point (windows 0, 1, 2: every point) or left it from an earlier one (windows 3 to 6, whose
    block index never moves: fetched at the first point only). This holds for any proof data whose array is `V`'s
    and whose body leaves the block where it found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's post to the claim's -/

/-- The launch theorem ends with every window's array at what the proof data computes and every other unscoped
    buffer as the region found it. Arguments 1, 2 and 3 are the arrays of the input windows 0, 1 and 2: an input's
    array is never written back, so it ends as the region found it. The other nineteen arguments are no window's
    array. In both cases the region found the argument as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

/-! ## The body's rectangles

Every load and every store of the body is through the rectangle that is the whole staging buffer: offset zero,
the buffer's own extents, unit strides. One name per buffer shape. -/

abbrev whole1024x512 : Rect S1024x512 := Rect.unit (s := S1024x512) ![0, 0] S1024x512.size inb_S1024x512_S1024x512_0_0
abbrev whole1024x256 : Rect S1024x256 := Rect.unit (s := S1024x256) ![0, 0] S1024x256.size inb_S1024x256_S1024x256_0_0
abbrev whole1280x512 : Rect S1280x512 := Rect.unit (s := S1280x512) ![0, 0] S1280x512.size inb_S1280x512_S1280x512_0_0
abbrev whole1x512 : Rect S1x512 := Rect.unit (s := S1x512) ![0, 0] S1x512.size inb_S1x512_S1x512_0_0
abbrev whole512x64 : Rect S512x64 := Rect.unit (s := S512x64) ![0, 0] S512x64.size inb_S512x64_S512x64_0_0
abbrev whole1x64 : Rect S1x64 := Rect.unit (s := S1x64) ![0, 0] S1x64.size inb_S1x64_S1x64_0_0
abbrev whole1024x64 : Rect S1024x64 := Rect.unit (s := S1024x64) ![0, 0] S1024x64.size inb_S1024x64_S1024x64_0_0

/-! ## What the body leaves in the output buffers

Each output buffer receives exactly one store, of the whole buffer, so it ends as the canon of that one piece.
The payloads are the skeleton's, over what the body loaded: `x0` the first state block (1024×512), `x1` the
second (1024×512), `x2` the third (1024×256), `x3` the stacked bf16 weight matrix (1280×512), `x4` the summed
bias row (1×512), `x5` the bf16 read-out matrix (512×64), `x6` the read-out bias row (1×64). -/

/-- Output window 7 (1024×64): the hyperbolic tangent of the read-out of `x0` through `x5` plus the bias `x6`. -/
def out0_7 (x0 : Vec F S1024x512 .f32) (x5 : Vec F S512x64 .bf16) (x6 : Vec F S1x64 .f32) : Vec F S1024x64 .f32 :=
  View.canon [⟨whole1024x64, k0_pay5 (View.ld x0 whole1024x512) (View.ld x5 whole512x64) (View.ld x6 whole1x64)⟩]

/-- Output window 8 (1024×512): the logistic function of `x0`, written as a scaled and shifted tanh. -/
def out0_8 (x0 : Vec F S1024x512 .f32) : Vec F S1024x512 .f32 :=
  View.canon [⟨whole1024x512, k0_pay6 (View.ld x0 whole1024x512)⟩]

/-- Output window 9 (1024×512): the logistic function of the new pre-activation, which is the leaky mix of `x1`
    with the product of the three concatenated blocks and the weights `x3`, plus the bias `x4`. -/
def out0_9 (x0 : Vec F S1024x512 .f32) (x1 : Vec F S1024x512 .f32) (x2 : Vec F S1024x256 .f32) (x3 : Vec F S1280x512 .bf16)
    (x4 : Vec F S1x512 .f32) : Vec F S1024x512 .f32 :=
  View.canon [⟨whole1024x512, k0_pay1 (k0_pay4 (View.ld x0 whole1024x512) (View.ld x1 whole1024x512) (View.ld x2 whole1024x256)
    (View.ld x3 whole1280x512) (View.ld x4 whole1x512))⟩]

/-- Output window 10 (1024×256): the logistic function of `x2`. -/
def out0_10 (x2 : Vec F S1024x256 .f32) : Vec F S1024x256 .f32 :=
  View.canon [⟨whole1024x256, k0_pay2 (View.ld x2 whole1024x256)⟩]

/-! A single piece over the whole-buffer rectangle covers the buffer: it tiles it with one tile. -/

theorem cover1024x64 (p0 : Vec F S1024x64 .f32) (y : S1024x64.Idx) :
    ∃ pc ∈ ([⟨whole1024x64, p0⟩] : List (View.Piece (Elt F) S1024x64 .f32)), y ∈ pc.1.set :=
  View.cover_of_tiled [⟨whole1024x64, p0⟩] S1024x64.size (by rfl) y
theorem cover1024x512 (p0 : Vec F S1024x512 .f32) (y : S1024x512.Idx) :
    ∃ pc ∈ ([⟨whole1024x512, p0⟩] : List (View.Piece (Elt F) S1024x512 .f32)), y ∈ pc.1.set :=
  View.cover_of_tiled [⟨whole1024x512, p0⟩] S1024x512.size (by rfl) y
theorem cover1024x256 (p0 : Vec F S1024x256 .f32) (y : S1024x256.Idx) :
    ∃ pc ∈ ([⟨whole1024x256, p0⟩] : List (View.Piece (Elt F) S1024x256 .f32)), y ∈ pc.1.set :=
  View.cover_of_tiled [⟨whole1024x256, p0⟩] S1024x256.size (by rfl) y

/-! ## The proof data of the pipeline -/

/-- On core `c`: each window's array is what the region finds (`V`); after the body at point `t` an input's
    buffer still holds its block and each output's buffer holds `out0_W` of the input blocks of that point; the
    invariant is the scoped rest and the generator register, which the body never touches; full shares, nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 5 t) (iblk m c 6 t)
    | ⟨8, _⟩ => out0_8 (iblk m c 0 t)
    | ⟨9, _⟩ => out0_9 (iblk m c 0 t) (iblk m c 1 t) (iblk m c 2 t) (iblk m c 3 t) (iblk m c 4 t)
    | ⟨10, _⟩ => out0_10 (iblk m c 2 t)
  Φ _ := Pipeline.ΦA spec0 c
  q _ := fullShare
  owed _ := 0

/-- The arrays of the proof data are the region-entry contents, read off the definition without unfolding `V`. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 5 t) (iblk m c 6 t) := by dsimp only [dats]
theorem after0_8 (c : Dev nD) (t : Fin cfg0.N) : (dats m 0 c).after 8 t = out0_8 (iblk m c 0 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 2 t) := by dsimp only [dats]

/-! Each input's staging buffer holds its block when the body is called. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body's triple -/

set_option maxHeartbeats 1000000 in
/-- The body on eleven whole staging memrefs. The seven input buffers are held at read contents `x0` … `x6`; the
    four output buffers at anything. The body loads the seven inputs, loads and discards each output buffer just
    before overwriting it whole, and returns. It ends with the inputs as they were and each output at `out0_W`:
    the single whole-buffer store read back is the canon of that piece, whatever the buffer held before. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x256 .f32) (harg3 : arg3.IsWhole) (arg4 : Memref sig .tc .vmem S1280x512 .bf16) (harg4 : arg4.IsWhole)
    (arg5 : Memref sig .tc .vmem S1x512 .f32) (harg5 : arg5.IsWhole) (arg6 : Memref sig .tc .vmem S512x64 .bf16) (harg6 : arg6.IsWhole)
    (arg7 : Memref sig .tc .vmem S1x64 .f32) (harg7 : arg7.IsWhole) (arg8 : Memref sig .tc .vmem S1024x64 .f32) (harg8 : arg8.IsWhole)
    (arg9 : Memref sig .tc .vmem S1024x512 .f32) (harg9 : arg9.IsWhole) (arg10 : Memref sig .tc .vmem S1024x512 .f32) (harg10 : arg10.IsWhole)
    (arg11 : Memref sig .tc .vmem S1024x256 .f32) (harg11 : arg11.IsWhole)
    (x0 : Vec F S1024x512 .f32) (x1 : Vec F S1024x512 .f32) (x2 : Vec F S1024x256 .f32) (x3 : Vec F S1280x512 .bf16)
    (x4 : Vec F S1x512 .f32) (x5 : Vec F S512x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x5 x6) ∗ owns (c : Thread nD τ) arg9 fullShare (out0_8 x0)
            ∗ owns (c : Thread nD τ) arg10 fullShare (out0_9 x0 x1 x2 x3 x4) ∗ owns (c : Thread nD τ) arg11 fullShare (out0_10 x2)) -∗ K ⟨⟩))
      ⊢ wp frame (wpE (defs₀ (F := F)) Variants.none c none) E
          (cc0__mtrnn_kernel i arg1 harg1 arg2 harg2 arg3 harg3 arg4 harg4 arg5 harg5 arg6 harg6 arg7 harg7 arg8 harg8 arg9 harg9 arg10 harg10 arg11 harg11) K := by
  simp only [cc0__mtrnn_kernel_eq_skeleton]; unfold cc0__mtrnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1024x64 _)
  isplitl [H8]
  · iexists _; isplitr
    swap; · iexact H8
    ipureintro
    unfold sound_kernel.sl.r_2
    exact View.read_writes_eq_canon _ _ _ (cover1024x512 _)
  isplitl [H9]
  · iexists _; isplitr
    swap; · iexact H9
    ipureintro
    unfold sound_kernel.sl.r_1
    exact View.read_writes_eq_canon _ _ _ (cover1024x512 _)
  iexists _; isplitr
  swap; · iexact H10
  ipureintro
  unfold sound_kernel.sl.r
  exact View.read_writes_eq_canon _ _ _ (cover1024x256 _)

/-! ## The body obligation at a generic point -/

/-- What the pipeline hands the body at point `t`: the invariant, the core's duty term, and the current staging
    buffer of each of the eleven windows at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body hands back: the same invariant and duty term, and each staging buffer at the proof data's
    `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At any point the seven input buffers hold their blocks, so the body's triple applies at those blocks; the
    invariant and the duty term are the same before and after and pass by untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation: the windows' conjunction opened into the eleven conjuncts above. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every fair execution of the entry function terminates, and at the end
    each window's array holds what the proof data computes and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.Kernel.Hand

end
-- ==== Proof.KIFrame.lean ====
/- The frame of the idealized kernel program: one TensorCore region on a grid of 16 points, entered after
   eleven host operations (three transposes, their concatenation along the rows, two conversions to bf16, two
   additions, two reshapes and one more transpose). This module states what the buffers hold when the region is
   entered, what each window's block is at a grid point, what the body leaves in the four output buffers as a
   function of the seven input blocks, and runs the launch theorem to obtain that every argument array ends as it
   was launched. -/
import proofs.«425039_j46299747451485_3_alg».proof.Proof.Gen.KernelIdeal.Launch
import proofs.«425039_j46299747451485_3_alg».proof.Proof.Gen.KernelIdeal.Skeleton
import proofs.«425039_j46299747451485_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffer `b` holds once the eleven host operations have run over the launch memory `m`:
    the launch contents folded through the operations in order. -/
abbrev V (c : Dev nD) (b : Ref sig .tc) : Buf (Elt F) ((c : Thread nD τ).loc b) :=
  StableHlo.after hostOps0 (fun b => m (c, b)) b

/-- None of the eleven operations allocates: each writes a buffer the signature already names. -/
theorem hostOps0_fresh : (hostOps0 : List (HloOp τ sig (Elt F))).Forall fun op => op.fresh = ∅ := by
  simp only [List.Forall]; repeat' constructor

/-- The entry function is the eleven operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Every host operation writes one of the temporaries `main_v0` … `main_v10` (buffers 22 to 32), never an
    argument (buffers 0 to 21): so each argument array is, at the region's entry, what was launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- The block of window `w` at grid point `t`: the window's rectangle there, read off the window's array as the
    region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block when the body is called, whether the pipeline
    fetched it at that point (windows 0, 1, 2: every point) or left it from an earlier one (windows 3 to 6, whose
    block index never moves: fetched at the first point only). This holds for any proof data whose array is `V`'s
    and whose body leaves the block where it found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's post to the claim's -/

/-- The launch theorem ends with every window's array at what the proof data computes and every other unscoped
    buffer as the region found it. Arguments 1, 2 and 3 are the arrays of the input windows 0, 1 and 2: an input's
    array is never written back, so it ends as the region found it. The other nineteen arguments are no window's
    array. In both cases the region found the argument as launched (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

/-! ## The body's rectangles

Every load and every store of the body is through the rectangle that is the whole staging buffer: offset zero,
the buffer's own extents, unit strides. One name per buffer shape. -/

abbrev whole1024x512 : Rect S1024x512 := Rect.unit (s := S1024x512) ![0, 0] S1024x512.size inb_S1024x512_S1024x512_0_0
abbrev whole1024x256 : Rect S1024x256 := Rect.unit (s := S1024x256) ![0, 0] S1024x256.size inb_S1024x256_S1024x256_0_0
abbrev whole1280x512 : Rect S1280x512 := Rect.unit (s := S1280x512) ![0, 0] S1280x512.size inb_S1280x512_S1280x512_0_0
abbrev whole1x512 : Rect S1x512 := Rect.unit (s := S1x512) ![0, 0] S1x512.size inb_S1x512_S1x512_0_0
abbrev whole512x64 : Rect S512x64 := Rect.unit (s := S512x64) ![0, 0] S512x64.size inb_S512x64_S512x64_0_0
abbrev whole1x64 : Rect S1x64 := Rect.unit (s := S1x64) ![0, 0] S1x64.size inb_S1x64_S1x64_0_0
abbrev whole1024x64 : Rect S1024x64 := Rect.unit (s := S1024x64) ![0, 0] S1024x64.size inb_S1024x64_S1024x64_0_0

/-! ## What the body leaves in the output buffers

Each output buffer receives exactly one store, of the whole buffer, so it ends as the canon of that one piece.
The payloads are the skeleton's, over what the body loaded: `x0` the first state block (1024×512), `x1` the
second (1024×512), `x2` the third (1024×256), `x3` the stacked bf16 weight matrix (1280×512), `x4` the summed
bias row (1×512), `x5` the bf16 read-out matrix (512×64), `x6` the read-out bias row (1×64). -/

/-- Output window 7 (1024×64): the hyperbolic tangent of the read-out of `x0` through `x5` plus the bias `x6`. -/
def out0_7 (x0 : Vec F S1024x512 .f32) (x5 : Vec F S512x64 .bf16) (x6 : Vec F S1x64 .f32) : Vec F S1024x64 .f32 :=
  View.canon [⟨whole1024x64, k0_pay5 (View.ld x0 whole1024x512) (View.ld x5 whole512x64) (View.ld x6 whole1x64)⟩]

/-- Output window 8 (1024×512): the logistic function of `x0`, written as a scaled and shifted tanh. -/
def out0_8 (x0 : Vec F S1024x512 .f32) : Vec F S1024x512 .f32 :=
  View.canon [⟨whole1024x512, k0_pay6 (View.ld x0 whole1024x512)⟩]

/-- Output window 9 (1024×512): the logistic function of the new pre-activation, which is the leaky mix of `x1`
    with the product of the three concatenated blocks and the weights `x3`, plus the bias `x4`. -/
def out0_9 (x0 : Vec F S1024x512 .f32) (x1 : Vec F S1024x512 .f32) (x2 : Vec F S1024x256 .f32) (x3 : Vec F S1280x512 .bf16)
    (x4 : Vec F S1x512 .f32) : Vec F S1024x512 .f32 :=
  View.canon [⟨whole1024x512, k0_pay1 (k0_pay4 (View.ld x0 whole1024x512) (View.ld x1 whole1024x512) (View.ld x2 whole1024x256)
    (View.ld x3 whole1280x512) (View.ld x4 whole1x512))⟩]

/-- Output window 10 (1024×256): the logistic function of `x2`. -/
def out0_10 (x2 : Vec F S1024x256 .f32) : Vec F S1024x256 .f32 :=
  View.canon [⟨whole1024x256, k0_pay2 (View.ld x2 whole1024x256)⟩]

/-! A single piece over the whole-buffer rectangle covers the buffer: it tiles it with one tile. -/

theorem cover1024x64 (p0 : Vec F S1024x64 .f32) (y : S1024x64.Idx) :
    ∃ pc ∈ ([⟨whole1024x64, p0⟩] : List (View.Piece (Elt F) S1024x64 .f32)), y ∈ pc.1.set :=
  View.cover_of_tiled [⟨whole1024x64, p0⟩] S1024x64.size (by rfl) y
theorem cover1024x512 (p0 : Vec F S1024x512 .f32) (y : S1024x512.Idx) :
    ∃ pc ∈ ([⟨whole1024x512, p0⟩] : List (View.Piece (Elt F) S1024x512 .f32)), y ∈ pc.1.set :=
  View.cover_of_tiled [⟨whole1024x512, p0⟩] S1024x512.size (by rfl) y
theorem cover1024x256 (p0 : Vec F S1024x256 .f32) (y : S1024x256.Idx) :
    ∃ pc ∈ ([⟨whole1024x256, p0⟩] : List (View.Piece (Elt F) S1024x256 .f32)), y ∈ pc.1.set :=
  View.cover_of_tiled [⟨whole1024x256, p0⟩] S1024x256.size (by rfl) y

/-! ## The proof data of the pipeline -/

/-- On core `c`: each window's array is what the region finds (`V`); after the body at point `t` an input's
    buffer still holds its block and each output's buffer holds `out0_W` of the input blocks of that point; the
    invariant is the scoped rest and the generator register, which the body never touches; full shares, nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 5 t) (iblk m c 6 t)
    | ⟨8, _⟩ => out0_8 (iblk m c 0 t)
    | ⟨9, _⟩ => out0_9 (iblk m c 0 t) (iblk m c 1 t) (iblk m c 2 t) (iblk m c 3 t) (iblk m c 4 t)
    | ⟨10, _⟩ => out0_10 (iblk m c 2 t)
  Φ _ := Pipeline.ΦA spec0 c
  q _ := fullShare
  owed _ := 0

/-- The arrays of the proof data are the region-entry contents, read off the definition without unfolding `V`. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 5 t) (iblk m c 6 t) := by dsimp only [dats]
theorem after0_8 (c : Dev nD) (t : Fin cfg0.N) : (dats m 0 c).after 8 t = out0_8 (iblk m c 0 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]
theorem after0_10 (c : Dev nD) (t : Fin cfg0.N) : (dats m 0 c).after 10 t = out0_10 (iblk m c 2 t) := by dsimp only [dats]

/-! Each input's staging buffer holds its block when the body is called. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body's triple -/

set_option maxHeartbeats 1000000 in
/-- The body on eleven whole staging memrefs. The seven input buffers are held at read contents `x0` … `x6`; the
    four output buffers at anything. The body loads the seven inputs, loads and discards each output buffer just
    before overwriting it whole, and returns. It ends with the inputs as they were and each output at `out0_W`:
    the single whole-buffer store read back is the canon of that piece, whatever the buffer held before. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x256 .f32) (harg3 : arg3.IsWhole) (arg4 : Memref sig .tc .vmem S1280x512 .bf16) (harg4 : arg4.IsWhole)
    (arg5 : Memref sig .tc .vmem S1x512 .f32) (harg5 : arg5.IsWhole) (arg6 : Memref sig .tc .vmem S512x64 .bf16) (harg6 : arg6.IsWhole)
    (arg7 : Memref sig .tc .vmem S1x64 .f32) (harg7 : arg7.IsWhole) (arg8 : Memref sig .tc .vmem S1024x64 .f32) (harg8 : arg8.IsWhole)
    (arg9 : Memref sig .tc .vmem S1024x512 .f32) (harg9 : arg9.IsWhole) (arg10 : Memref sig .tc .vmem S1024x512 .f32) (harg10 : arg10.IsWhole)
    (arg11 : Memref sig .tc .vmem S1024x256 .f32) (harg11 : arg11.IsWhole)
    (x0 : Vec F S1024x512 .f32) (x1 : Vec F S1024x512 .f32) (x2 : Vec F S1024x256 .f32) (x3 : Vec F S1280x512 .bf16)
    (x4 : Vec F S1x512 .f32) (x5 : Vec F S512x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x5 x6) ∗ owns (c : Thread nD τ) arg9 fullShare (out0_8 x0)
            ∗ owns (c : Thread nD τ) arg10 fullShare (out0_9 x0 x1 x2 x3 x4) ∗ owns (c : Thread nD τ) arg11 fullShare (out0_10 x2)) -∗ K ⟨⟩))
      ⊢ wp frame (wpE (defs₀ (F := F)) Variants.none c none) E
          (cc0__mtrnn_kernel i arg1 harg1 arg2 harg2 arg3 harg3 arg4 harg4 arg5 harg5 arg6 harg6 arg7 harg7 arg8 harg8 arg9 harg9 arg10 harg10 arg11 harg11) K := by
  simp only [cc0__mtrnn_kernel_eq_skeleton]; unfold cc0__mtrnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1024x64 _)
  isplitl [H8]
  · iexists _; isplitr
    swap; · iexact H8
    ipureintro
    unfold sound_kernel.sl.r_2
    exact View.read_writes_eq_canon _ _ _ (cover1024x512 _)
  isplitl [H9]
  · iexists _; isplitr
    swap; · iexact H9
    ipureintro
    unfold sound_kernel.sl.r_1
    exact View.read_writes_eq_canon _ _ _ (cover1024x512 _)
  iexists _; isplitr
  swap; · iexact H10
  ipureintro
  unfold sound_kernel.sl.r
  exact View.read_writes_eq_canon _ _ _ (cover1024x256 _)

/-! ## The body obligation at a generic point -/

/-- What the pipeline hands the body at point `t`: the invariant, the core's duty term, and the current staging
    buffer of each of the eleven windows at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body hands back: the same invariant and duty term, and each staging buffer at the proof data's
    `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At any point the seven input buffers hold their blocks, so the body's triple applies at those blocks; the
    invariant and the duty term are the same before and after and pass by untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation: the windows' conjunction opened into the eleven conjuncts above. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every fair execution of the entry function terminates, and at the end
    each window's array holds what the proof data computes and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.KernelIdeal.Hand

end
-- ==== Proof.Spec.lean ====
/-
  What the program computes, stated once for both sides, over the extended reals.

  With  lin x W b (p, q) = ∑ k, x (p, k) * W (q, k) + b q   (a row of x against a row of W: x · Wᵀ + b),
  and   sg x = 1 / (1 + e^(-x))                              (the logistic function, total on the extended reals),

    output   (p, q) = tanh (lin io_h W_io2out b_io2out (p, q))
    sig_io        i = sg (io_h i)
    sig_fast (p, q) = sg (c₁ * fast_h (p, q)
                            + ((lin fast_h W_f2f b_f2f + lin slow_h W_s2f b_s2f) + lin io_h W_in2f b_in2f) (p, q) / c₂)
    sig_slow      i = sg (slow_h i)

  where c₁ and c₂ are the two float literals both programs spell (never evaluated: they are the same words).

  Three laws join the kernel's arrangement to this one:
    * (1/2) * (1 + tanh (x / 2)) = sg x  for EVERY extended real x (at -∞ both sides are 0, at +∞ both are 1);
    * a sum over 1280 positions is the sum over its first 512, its next 256 and its last 512 positions;
    * sums of six terms regrouped (addition on the extended reals is commutative and associative).
-/
import Idealize.ShloMosaic.Lib.ValueIdx
import Idealize.ShloMosaic.PureOps.Ideal.Laws
import Mathlib.Analysis.SpecialFunctions.Trigonometric.DerivHyp
import Mathlib.Algebra.BigOperators.Fin

noncomputable section

namespace Cert.Spec

open Idealize.ShloMosaic Idealize.ShloMosaic.ValueIdx

/-- A matrix of extended reals with `r` rows and `c` columns. -/
abbrev Mat (r c : ℕ) : Type := (⟨2, ![r, c]⟩ : Shape).Idx → EReal
/-- A vector of extended reals of length `n`. -/
abbrev Row (n : ℕ) : Type := (⟨1, ![n]⟩ : Shape).Idx → EReal

/-- The two coordinates of a matrix index, as numbers below the literal extents. -/
abbrev rowOf {r c : ℕ} (i : (⟨2, ![r, c]⟩ : Shape).Idx) : Fin r := ⟨(i 0).val, (i 0).isLt⟩
abbrev colOf {r c : ℕ} (i : (⟨2, ![r, c]⟩ : Shape).Idx) : Fin c := ⟨(i 1).val, (i 1).isLt⟩

/-- The logistic function `1 / (1 + e^(-x))` on the extended reals. -/
abbrev sg (x : EReal) : EReal := Ideal.div 1 (1 + Ideal.exp (-x))

/-- The literal both programs multiply the old fast state by, and the one both divide the summed layers by. -/
abbrev c₁ : EReal := Ideal.ofBits .f32 0x3F4CCCCD#32
abbrev c₂ : EReal := Ideal.ofBits .f32 0x40A00000#32

/-- Entry (p, q) of `x · Wᵀ + b`. -/
def lin {B K N : ℕ} (x : Mat B K) (W : Mat N K) (b : Row N) (p : Fin B) (q : Fin N) : EReal :=
  (∑ k : Fin K, x (ix2 p k) * W (ix2 q k)) + b (ix1 q)

/-- The output projection under tanh. -/
def outG (io : Mat 16384 512) (Wo : Mat 64 512) (bo : Row 64) : Mat 16384 64 :=
  fun i => Ideal.tanh (lin io Wo bo (rowOf i) (colOf i))

/-- The logistic function entry by entry. -/
def sigG {r c : ℕ} (x : Mat r c) : Mat r c := fun i => sg (x i)

/-- The leaky update of the fast state, before the logistic function. -/
def fastPre (io fast : Mat 16384 512) (slow : Mat 16384 256)
    (Wf : Mat 512 512) (bf : Row 512) (Ws : Mat 512 256) (bs : Row 512) (Wi : Mat 512 512) (bi : Row 512) : Mat 16384 512 :=
  fun i => c₁ * fast i
    + Ideal.div ((lin fast Wf bf (rowOf i) (colOf i) + lin slow Ws bs (rowOf i) (colOf i)) + lin io Wi bi (rowOf i) (colOf i)) c₂

/-- The logistic function of the updated fast state. -/
def fastG (io fast : Mat 16384 512) (slow : Mat 16384 256)
    (Wf : Mat 512 512) (bf : Row 512) (Ws : Mat 512 256) (bs : Row 512) (Wi : Mat 512 512) (bi : Row 512) : Mat 16384 512 :=
  sigG (fastPre io fast slow Wf bf Ws bs Wi bi)

/-! ## The float literals 1 and 1/2 -/

theorem ofBits_one : Ideal.ofBits .f32 0x3F800000#32 = 1 := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-! ## The logistic function through tanh -/

/-- Over the reals: `(1/2) (1 + tanh (r/2)) = 1 / (1 + e^(-r))`. With `a = e^(r/2)` the left side is
    `a / (a + 1/a)` and `e^(-r) = (1/a)²`. -/
theorem real_half_tanh (r : ℝ) : (1 / 2 : ℝ) * (1 + Real.tanh (1 / 2 * r)) = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- On the extended reals, for every `x`: at `-∞` the tanh is `-1` and both sides are `0`; at `+∞` it is `1` and
    both sides are `1`; in between it is the real identity. -/
theorem half_tanh (x : EReal) :
    ((1 / 2 : ℝ) : EReal) * (1 + Ideal.tanh (((1 / 2 : ℝ) : EReal) * x)) = sg x := by
  show _ = Ideal.logistic x
  induction x using EReal.rec with
  | bot =>
    rw [EReal.coe_mul_bot_of_pos (by norm_num), Ideal.tanh_bot, Ideal.logistic_bot]
    have : (1 : EReal) + -1 = 0 := by
      rw [← EReal.coe_one, ← EReal.coe_neg, ← EReal.coe_add]; norm_num
    rw [this, mul_zero]
  | coe r =>
    rw [← EReal.coe_mul, Ideal.tanh_coe, Ideal.logistic_coe, ← EReal.coe_one, ← EReal.coe_add, ← EReal.coe_mul]
    exact congrArg _ (real_half_tanh r)
  | top =>
    rw [EReal.coe_mul_top_of_pos (by norm_num), Ideal.tanh_top, Ideal.logistic_top]
    rw [← EReal.coe_one, ← EReal.coe_add, ← EReal.coe_mul]
    exact congrArg _ (by norm_num)

/-- The same with the literals as the kernel spells them. -/
theorem half_tanh_bits (x : EReal) :
    Ideal.ofBits .f32 0x3F000000#32 * (Ideal.ofBits .f32 0x3F800000#32 + Ideal.tanh (Ideal.ofBits .f32 0x3F000000#32 * x)) = sg x := by
  rw [ofBits_half, ofBits_one]; exact half_tanh x

/-! ## A sum over 1280 positions in three stretches -/

/-- The first 512, the next 256 and the last 512 positions. -/
theorem sum_1280 {M : Type} [AddCommMonoid M] (g : Fin 1280 → M) :
    ∑ k : Fin 1280, g k
      = (∑ k : Fin 512, g ⟨k.val, by omega⟩ + ∑ k : Fin 256, g ⟨512 + k.val, by omega⟩) + ∑ k : Fin 512, g ⟨768 + k.val, by omega⟩ := by
  have e1 := Fin.sum_univ_add (a := 768) (b := 512) g
  have e2 := Fin.sum_univ_add (a := 512) (b := 256) (fun i : Fin (512 + 256) => g (Fin.castAdd 512 i))
  rw [e1, e2]
  rfl

/-! ## Six terms regrouped -/

theorem regroup (Sf Ss Si bf bs bi : EReal) :
    ((Sf + Ss) + Si) + ((bf + bs) + bi) = ((Sf + bf) + (Ss + bs)) + (Si + bi) := by
  abel

end Cert.Spec

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibBiasedDot.lean ====
/-
  An affine layer as a kernel body spells it, read at an entry.

  The body multiplies a block [M, K] by a weight [K, N] that first passes through a shape cast to its own
  shape, accumulating into the zero splat, and adds a bias kept as one row [1, N]: the row passes through a
  shape cast to its own shape and is broadcast over the M rows. At the ideal values entry (p, q) of that
  sum is the textbook

      ∑ k, l (p, k) * w (k, q)  +  b (0, q).

  Stated for any plain product record (left axis 1 contracted with right axis 0, no batch axes), any
  extents and element formats.
-/
import proofs.«425039_j46299747451485_3_alg».proof.Proof.LibPlainDot
import Idealize.ShloMosaic.Lib.ValueLayout
import Idealize.ShloMosaic.Lib.Pipeline.Value

noncomputable section

namespace Idealize.ShloMosaic.BiasedDot

open Idealize.ShloMosaic Idealize.ShloMosaic.ValueIdx

/-- Entry (p, q) of  product-into-zero + bias row broadcast over the rows. -/
theorem apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision)
    (l : FVec Ideal ⟨2, ![M, K]⟩ φ₁) (w : FVec Ideal ⟨2, ![K, N]⟩ φ₂)
    (hw : (⟨2, ![K, N]⟩ : Shape).ShapeCasts ⟨2, ![K, N]⟩)
    (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    addf (matmul d prec l (shapeCast ⟨2, ![K, N]⟩ w hw) (constant (F := Ideal) ⟨2, ![M, N]⟩ .f32 0x00000000#32))
        (broadcastTo ⟨2, ![M, N]⟩ (shapeCast ⟨2, ![1, N]⟩ b hb) hbc) (ix2 p q)
      = ∑ k : Fin K, l (ix2 p k) * w (ix2 k q) + b (ix2 (0 : Fin 1) q) := by
  rw [addf_apply, shapeCast_self, shapeCast_self, broadcastTo_1b_ab_apply]
  exact congrArg (· + b (ix2 (0 : Fin 1) q)) (PlainDot.matmul_zero_apply d hlc hrc hln hrn hlb hrb hr hs prec l w p q)

end Idealize.ShloMosaic.BiasedDot

end
-- ==== Proof.LibConcat3.lean ====
/-
  Three matrices laid end to end, read at an entry.

  Side by side (along the columns): pieces of a, b and c columns over the same M rows make a matrix of N columns whose
  entry (p, k) is the first piece's for k < a, the second's at k - a for a ≤ k < a + b, the third's at k - (a + b) beyond.
  One above the other (along the rows): the same with rows for columns. Stated with the entry's offset coordinate
  written as offset + position, so that a sum over the long axis splits into the three pieces' sums.
-/
import Idealize.ShloMosaic.Lib.ValueIdx
import Idealize.ShloMosaic.Lib.Pipeline.Value

noncomputable section

namespace Idealize.ShloMosaic.Concat3

open Idealize.ShloMosaic Idealize.ShloMosaic.ValueIdx

variable {α : Type}

section Cols

variable {M a b c N : ℕ} (x : (⟨2, ![M, a]⟩ : Shape).Idx → α) (y : (⟨2, ![M, b]⟩ : Shape).Idx → α)
  (z : (⟨2, ![M, c]⟩ : Shape).Idx → α)
  (h : Shape.Concatenates (([⟨⟨2, ![M, a]⟩, x⟩, ⟨⟨2, ![M, b]⟩, y⟩, ⟨⟨2, ![M, c]⟩, z⟩] : List ((s : Shape) × (s.Idx → α))).map (·.1))
    ⟨2, ![M, N]⟩ (1 : Fin 2))

/-- Off the joined axis the coordinates agree. -/
private theorem off1 {M n N : ℕ} (p : Fin M) (k : Fin n) (k' : Fin N) :
    ∀ d : Fin 2, d.cast rfl ≠ (1 : Fin 2) → ((ix2 p k : (⟨2, ![M, n]⟩ : Shape).Idx) d).val = ((ix2 p k' : (⟨2, ![M, N]⟩ : Shape).Idx) (d.cast rfl)).val
  | ⟨0, _⟩, _ => rfl
  | ⟨1, _⟩, hd => absurd rfl hd

theorem cols_fst (p : Fin M) (k : Fin a) (hk : k.val < N) :
    concatenate ⟨2, ![M, N]⟩ (1 : Fin 2) [⟨⟨2, ![M, a]⟩, x⟩, ⟨⟨2, ![M, b]⟩, y⟩, ⟨⟨2, ![M, c]⟩, z⟩] h (ix2 p ⟨k.val, hk⟩) = x (ix2 p k) :=
  concatenate_apply_piece (t := ⟨2, ![M, N]⟩) (1 : Fin 2) [⟨⟨2, ![M, a]⟩, x⟩, ⟨⟨2, ![M, b]⟩, y⟩, ⟨⟨2, ![M, c]⟩, z⟩] h (ix2 p ⟨k.val, hk⟩)
    0 (by simp) ⟨2, ![M, a]⟩ x rfl rfl 0 rfl (ix2 p k) (off1 p k _) (Nat.zero_add _)

theorem cols_snd (p : Fin M) (k : Fin b) (hk : a + k.val < N) :
    concatenate ⟨2, ![M, N]⟩ (1 : Fin 2) [⟨⟨2, ![M, a]⟩, x⟩, ⟨⟨2, ![M, b]⟩, y⟩, ⟨⟨2, ![M, c]⟩, z⟩] h (ix2 p ⟨a + k.val, hk⟩) = y (ix2 p k) :=
  concatenate_apply_piece (t := ⟨2, ![M, N]⟩) (1 : Fin 2) [⟨⟨2, ![M, a]⟩, x⟩, ⟨⟨2, ![M, b]⟩, y⟩, ⟨⟨2, ![M, c]⟩, z⟩] h (ix2 p ⟨a + k.val, hk⟩)
    1 (by simp) ⟨2, ![M, b]⟩ y rfl rfl a (by simp) (ix2 p k) (off1 p k _) rfl

theorem cols_thd (p : Fin M) (k : Fin c) (hk : a + b + k.val < N) :
    concatenate ⟨2, ![M, N]⟩ (1 : Fin 2) [⟨⟨2, ![M, a]⟩, x⟩, ⟨⟨2, ![M, b]⟩, y⟩, ⟨⟨2, ![M, c]⟩, z⟩] h (ix2 p ⟨a + b + k.val, hk⟩) = z (ix2 p k) :=
  concatenate_apply_piece (t := ⟨2, ![M, N]⟩) (1 : Fin 2) [⟨⟨2, ![M, a]⟩, x⟩, ⟨⟨2, ![M, b]⟩, y⟩, ⟨⟨2, ![M, c]⟩, z⟩] h (ix2 p ⟨a + b + k.val, hk⟩)
    2 (by simp) ⟨2, ![M, c]⟩ z rfl rfl (a + b) (by simp) (ix2 p k) (off1 p k _) rfl

end Cols

section Rows

variable {a b c M N : ℕ} (x : (⟨2, ![a, N]⟩ : Shape).Idx → α) (y : (⟨2, ![b, N]⟩ : Shape).Idx → α)
  (z : (⟨2, ![c, N]⟩ : Shape).Idx → α)
  (h : Shape.Concatenates (([⟨⟨2, ![a, N]⟩, x⟩, ⟨⟨2, ![b, N]⟩, y⟩, ⟨⟨2, ![c, N]⟩, z⟩] : List ((s : Shape) × (s.Idx → α))).map (·.1))
    ⟨2, ![M, N]⟩ (0 : Fin 2))

private theorem off0 {n M N : ℕ} (k : Fin n) (k' : Fin M) (q : Fin N) :
    ∀ d : Fin 2, d.cast rfl ≠ (0 : Fin 2) → ((ix2 k q : (⟨2, ![n, N]⟩ : Shape).Idx) d).val = ((ix2 k' q : (⟨2, ![M, N]⟩ : Shape).Idx) (d.cast rfl)).val
  | ⟨0, _⟩, hd => absurd rfl hd
  | ⟨1, _⟩, _ => rfl

theorem rows_fst (k : Fin a) (q : Fin N) (hk : k.val < M) :
    concatenate ⟨2, ![M, N]⟩ (0 : Fin 2) [⟨⟨2, ![a, N]⟩, x⟩, ⟨⟨2, ![b, N]⟩, y⟩, ⟨⟨2, ![c, N]⟩, z⟩] h (ix2 ⟨k.val, hk⟩ q) = x (ix2 k q) :=
  concatenate_apply_piece (t := ⟨2, ![M, N]⟩) (0 : Fin 2) [⟨⟨2, ![a, N]⟩, x⟩, ⟨⟨2, ![b, N]⟩, y⟩, ⟨⟨2, ![c, N]⟩, z⟩] h (ix2 ⟨k.val, hk⟩ q)
    0 (by simp) ⟨2, ![a, N]⟩ x rfl rfl 0 rfl (ix2 k q) (off0 k _ q) (Nat.zero_add _)

theorem rows_snd (k : Fin b) (q : Fin N) (hk : a + k.val < M) :
    concatenate ⟨2, ![M, N]⟩ (0 : Fin 2) [⟨⟨2, ![a, N]⟩, x⟩, ⟨⟨2, ![b, N]⟩, y⟩, ⟨⟨2, ![c, N]⟩, z⟩] h (ix2 ⟨a + k.val, hk⟩ q) = y (ix2 k q) :=
  concatenate_apply_piece (t := ⟨2, ![M, N]⟩) (0 : Fin 2) [⟨⟨2, ![a, N]⟩, x⟩, ⟨⟨2, ![b, N]⟩, y⟩, ⟨⟨2, ![c, N]⟩, z⟩] h (ix2 ⟨a + k.val, hk⟩ q)
    1 (by simp) ⟨2, ![b, N]⟩ y rfl rfl a (by simp) (ix2 k q) (off0 k _ q) rfl

theorem rows_thd (k : Fin c) (q : Fin N) (hk : a + b + k.val < M) :
    concatenate ⟨2, ![M, N]⟩ (0 : Fin 2) [⟨⟨2, ![a, N]⟩, x⟩, ⟨⟨2, ![b, N]⟩, y⟩, ⟨⟨2, ![c, N]⟩, z⟩] h (ix2 ⟨a + b + k.val, hk⟩ q) = z (ix2 k q) :=
  concatenate_apply_piece (t := ⟨2, ![M, N]⟩) (0 : Fin 2) [⟨⟨2, ![a, N]⟩, x⟩, ⟨⟨2, ![b, N]⟩, y⟩, ⟨⟨2, ![c, N]⟩, z⟩] h (ix2 ⟨a + b + k.val, hk⟩ q)
    2 (by simp) ⟨2, ![c, N]⟩ z rfl rfl (a + b) (by simp) (ix2 k q) (off0 k _ q) rfl

end Rows

end Idealize.ShloMosaic.Concat3

end
-- ==== Proof.KIPay.lean ====
/-
  The kernel body's stored values at an entry, at the ideal values, over one grid point's blocks.

  A point holds a block of 1024 rows of io_h (o), fast_h (f) and slow_h (s), the whole stacked weight w [1280, 512]
  (rows 0..511 against f, rows 512..767 against s, rows 768..1279 against o), the summed bias row b [1, 512], the output
  projection's weight u [512, 64] and bias row d [1, 64]. A change of float format is the identity here, so:

    the output block   (p, q) = tanh (∑ k<512, o (p, k) * u (k, q) + d (0, q))
    the sig_io block        y = (1/2) (1 + tanh (o y / 2))                       = sg (o y)
    the sig_slow block      y = sg (s y)
    the new fast state (p, q) = c₁ * f (p, q)
        + ((∑ k<512, f (p, k) * w (k, q) + ∑ k<256, s (p, k) * w (512 + k, q)) + ∑ k<512, o (p, k) * w (768 + k, q) + b (0, q)) / c₂
    the sig_fast block      y = sg (new fast state y)

  The row [f | s | o] of 1280 entries is a concatenation read piece by piece, and the sum over its 1280 positions is the
  three pieces' sums.
-/
import proofs.«425039_j46299747451485_3_alg».proof.Proof.Gen.KernelIdeal.Skeleton
import proofs.«425039_j46299747451485_3_alg».proof.Proof.Spec
import proofs.«425039_j46299747451485_3_alg».proof.Proof.LibBiasedDot
import proofs.«425039_j46299747451485_3_alg».proof.Proof.LibConcat3
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx Cert.Spec

/-- tanh of a vector, entry by entry. -/
theorem tanh_apply {s : Shape} {φ : FTy} (a : FVec Ideal s φ) (i : s.Idx) : tanh a i = Ideal.tanh (a i) := rfl

/-- `(1/2) (1 + tanh (x/2))` entry by entry is the logistic function: the stored sig_io block. -/
theorem pay6_apply (o : Vec Ideal S1024x512 .f32) (y : S1024x512.Idx) : k0_pay6 (F := Ideal) o y = sg (o y) := by
  unfold k0_pay6
  simp only [mulf_apply, addf_apply, broadcast_apply, tanh_apply]
  exact half_tanh_bits (o y)

/-- The stored sig_slow block. -/
theorem pay2_apply (s : Vec Ideal S1024x256 .f32) (y : S1024x256.Idx) : k0_pay2 (F := Ideal) s y = sg (s y) := by
  unfold k0_pay2
  simp only [mulf_apply, addf_apply, broadcast_apply, tanh_apply]
  exact half_tanh_bits (s y)

/-- The stored sig_fast block, from the new fast state. -/
theorem pay1_apply (n : FVec Ideal S1024x512 .f32) (y : S1024x512.Idx) : k0_pay1 (F := Ideal) n y = sg (n y) := by
  unfold k0_pay1
  simp only [mulf_apply, addf_apply, broadcast_apply, tanh_apply]
  exact half_tanh_bits (n y)

/-- The stored output block: the projection of the io_h block, plus its bias row, under tanh. -/
theorem pay5_apply (o : Vec Ideal S1024x512 .f32) (u : Vec Ideal S512x64 .bf16) (d : Vec Ideal S1x64 .f32) (p : Fin 1024) (q : Fin 64) :
    k0_pay5 (F := Ideal) o u d (ix2 p q)
      = Ideal.tanh ((∑ k : Fin 512, o (ix2 p k) * u (ix2 k q)) + d (ix2 (0 : Fin 1) q)) := by
  unfold k0_pay5 k0_pay3
  rw [tanh_apply]
  refine congrArg Ideal.tanh ?_
  exact BiasedDot.apply dot_S1024x512_S512x64_S1024x64_1_0_0_1_n_n rfl rfl rfl rfl rfl rfl rfl rfl none
    (truncf .bf16 o bitsLt_bf16_f32) u shapeCasts_S512x64_S512x64 d shapeCasts_S1x64_S1x64 broadcasts_S1x64_S1024x64 p q

/-- The new fast state: the leak term plus the fused layer over [f | s | o] divided by the time constant. -/
theorem pay4_apply (o f : Vec Ideal S1024x512 .f32) (s : Vec Ideal S1024x256 .f32) (w : Vec Ideal S1280x512 .bf16)
    (b : Vec Ideal S1x512 .f32) (p : Fin 1024) (q : Fin 512) :
    k0_pay4 (F := Ideal) o f s w b (ix2 p q)
      = c₁ * f (ix2 p q)
        + Ideal.div ((((∑ k : Fin 512, f (ix2 p k) * w (ix2 ⟨k.val, by omega⟩ q))
              + (∑ k : Fin 256, s (ix2 p k) * w (ix2 ⟨512 + k.val, by omega⟩ q)))
              + (∑ k : Fin 512, o (ix2 p k) * w (ix2 ⟨768 + k.val, by omega⟩ q)))
            + b (ix2 (0 : Fin 1) q)) c₂ := by
  unfold k0_pay4 k0_pay3
  rw [addf_apply, mulf_apply, broadcast_apply, divf_apply, broadcast_apply]
  rw [BiasedDot.apply dot_S1024x1280_S1280x512_S1024x512_1_0_0_1_n_n rfl rfl rfl rfl rfl rfl rfl rfl none _ w
    shapeCasts_S1280x512_S1280x512 b shapeCasts_S1x512_S1x512 broadcasts_S1x512_S1024x512 p q]
  rw [sum_1280]
  refine congrArg (fun t => c₁ * f (ix2 p q) + Ideal.div (t + b (ix2 (0 : Fin 1) q)) c₂) ?_
  refine congrArg₂ (· + ·) (congrArg₂ (· + ·) ?_ ?_) ?_
  · refine Finset.sum_congr rfl fun k _ => ?_
    rw [Concat3.cols_fst, truncf_apply]
  · refine Finset.sum_congr rfl fun k _ => ?_
    rw [Concat3.cols_snd, truncf_apply]
  · refine Finset.sum_congr rfl fun k _ => congrArg (· * w (ix2 ⟨768 + k.val, by omega⟩ q)) ?_
    exact (Concat3.cols_thd (a := 512) (b := 256) (c := 512) _ _ _
      concatenates_S1024x512_S1024x256_S1024x512_S1024x1280_d1 p k (by omega)).trans (truncf_apply _ _ _)

end Cert.KernelIdeal.Pay

end
-- ==== Proof.LibNary3.lean ====
/-
  A host operation over a literal family of THREE operand arrays (a concatenation of three pieces): its result, with each
  operand's contents taken at its own reference, so that a chain of host operations can go on being read operand by
  operand. (Under the binder `fun k => F (xs k)` the reference `xs k` is no literal and nothing further applies to it.)
-/
import Idealize.ShloMosaic.Lib.StableHlo.Run

noncomputable section

namespace Idealize.ShloMosaic.StableHlo

open Idealize.SL.Sem

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KIHost.lean ====
/-
  What the pallas_call finds in the four operand arrays the host computes before it, read at an entry, at the ideal values.

    the stacked weight [1280, 512]: row k, column q is  W_f2f (q, k)          for k < 512,
                                                          W_s2f (q, k - 512)    for 512 ≤ k < 768,
                                                          W_in2f (q, k - 768)   beyond
        (three transposes laid one above the other; the change of float format is the identity here);
    the summed bias row [1, 512]:   (0, q) is  (b_f2f q + b_s2f q) + b_in2f q;
    the output weight [512, 64]:    (k, q) is  W_io2out (q, k);
    the output bias row [1, 64]:    (0, q) is  b_io2out q.
-/
import proofs.«425039_j46299747451485_3_alg».proof.Proof.Gen.KernelIdeal.Launch
import proofs.«425039_j46299747451485_3_alg».proof.Proof.Spec
import proofs.«425039_j46299747451485_3_alg».proof.Proof.LibNary3
import proofs.«425039_j46299747451485_3_alg».proof.Proof.LibConcat3
import Idealize.ShloMosaic.Lib.StableHlo.Run
import Idealize.ShloMosaic.Lib.ValueLayout
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.Spec

/-- Each host operation's result from its operands' contents, a three-piece concatenation included. -/
macro "host_results" : tactic =>
  `(tactic| (simp only [after_cons, after_nil]
             repeat (first
               | rw [nary3_result] | rw [unary_result] | rw [binary_result] | rw [reshape_result]
               | (rw [unary_result_ne]; rotate_left; decide)
               | (rw [binary_result_ne]; rotate_left; decide)
               | (rw [reshape_result_ne]; rotate_left; decide)
               | (rw [nary_result_ne]; rotate_left; decide))))

variable (m : (ℓ : Loc nD τ sig) → Buf (Elt Ideal) ℓ) (c : Dev nD)

/-! ## The argument arrays, each at its literal type -/

abbrev aIo : Mat 16384 512 := m (c, Proc.devRef .tc main_arg1)
abbrev aFast : Mat 16384 512 := m (c, Proc.devRef .tc main_arg2)
abbrev aSlow : Mat 16384 256 := m (c, Proc.devRef .tc main_arg3)
abbrev aWi : Mat 512 512 := m (c, Proc.devRef .tc main_arg6)
abbrev aBi : Row 512 := m (c, Proc.devRef .tc main_arg7)
abbrev aWf : Mat 512 512 := m (c, Proc.devRef .tc main_arg8)
abbrev aBf : Row 512 := m (c, Proc.devRef .tc main_arg9)
abbrev aWs : Mat 512 256 := m (c, Proc.devRef .tc main_arg14)
abbrev aBs : Row 512 := m (c, Proc.devRef .tc main_arg15)
abbrev aWo : Mat 64 512 := m (c, Proc.devRef .tc main_arg20)
abbrev aBo : Row 64 := m (c, Proc.devRef .tc main_arg21)

/-! ## The arrays the host operations write, as the call finds them -/

/-- Core `c`'s buffers after the host operations that precede the call. -/
abbrev entry (b : Ref sig .tc) : Buf (Elt Ideal) ((c : Thread nD τ).loc b) :=
  StableHlo.after hostOps0 (fun b => m (c, b)) b

abbrev eWcat : Mat 1280 512 := entry m c main_v4
abbrev eBcat : Mat 1 512 := entry m c main_v7
abbrev eWout : Mat 512 64 := entry m c main_v9
abbrev eBout : Mat 1 64 := entry m c main_v10

/-- The stacked weight, as the host operations compose it. -/
theorem wcat_eq : eWcat m c
    = truncf (F := Ideal) .bf16 (concatenate S1280x512 0
        [⟨S512x512, transpose S512x512 [1, 0] (aWf m c) transposes_S512x512_S512x512_1_0⟩,
         ⟨S256x512, transpose S256x512 [1, 0] (aWs m c) transposes_S512x256_S256x512_1_0⟩,
         ⟨S512x512, transpose S512x512 [1, 0] (aWi m c) transposes_S512x512_S512x512_1_0⟩]
        concatenates_S512x512_S256x512_S512x512_S1280x512_d0) bitsLt_bf16_f32 := by
  dsimp only [eWcat, entry, hostOps0]
  host_results
  rfl

theorem wcat_fst (k : Fin 512) (q : Fin 512) : eWcat m c (ix2 ⟨k.val, by omega⟩ q) = aWf m c (ix2 q k) := by
  rw [wcat_eq, truncf_apply]
  exact (Concat3.rows_fst (a := 512) (b := 256) (c := 512) _ _ _
    concatenates_S512x512_S256x512_S512x512_S1280x512_d0 k q (by omega)).trans (transpose_ix2_apply _ _ _ _)

theorem wcat_snd (k : Fin 256) (q : Fin 512) : eWcat m c (ix2 ⟨512 + k.val, by omega⟩ q) = aWs m c (ix2 q k) := by
  rw [wcat_eq, truncf_apply]
  exact (Concat3.rows_snd (a := 512) (b := 256) (c := 512) _ _ _
    concatenates_S512x512_S256x512_S512x512_S1280x512_d0 k q (by omega)).trans (transpose_ix2_apply _ _ _ _)

theorem wcat_thd (k : Fin 512) (q : Fin 512) : eWcat m c (ix2 ⟨768 + k.val, by omega⟩ q) = aWi m c (ix2 q k) := by
  rw [wcat_eq, truncf_apply]
  exact (Concat3.rows_thd (a := 512) (b := 256) (c := 512) _ _ _
    concatenates_S512x512_S256x512_S512x512_S1280x512_d0 k q (by omega)).trans (transpose_ix2_apply _ _ _ _)

/-- The summed bias row. -/
theorem bcat_apply (q : Fin 512) :
    eBcat m c (ix2 (0 : Fin 1) q) = (aBf m c (ix1 q) + aBs m c (ix1 q)) + aBi m c (ix1 q) := by
  have e : eBcat m c
      = shapeCast S1x512 (addf (F := Ideal) (addf (F := Ideal) (φ := .f32) (aBf m c) (aBs m c)) (aBi m c)) shapeCasts_S512_S1x512 := by
    dsimp only [eBcat, entry, hostOps0]
    host_results
    rfl
  rw [e, shapeCast_a_1a_apply, addf_apply, addf_apply]

/-- The output projection's weight. -/
theorem wout_apply (k : Fin 512) (q : Fin 64) : eWout m c (ix2 k q) = aWo m c (ix2 q k) := by
  have e : eWout m c
      = truncf (F := Ideal) .bf16 (transpose S512x64 [1, 0] (aWo m c) transposes_S64x512_S512x64_1_0) bitsLt_bf16_f32 := by
    dsimp only [eWout, entry, hostOps0]
    host_results
  rw [e, truncf_apply, transpose_ix2_apply]

/-- The output projection's bias row. -/
theorem bout_apply (q : Fin 64) : eBout m c (ix2 (0 : Fin 1) q) = aBo m c (ix1 q) := by
  have e : eBout m c = shapeCast S1x64 (aBo m c) shapeCasts_S64_S1x64 := by
    dsimp only [eBout, entry, hostOps0]
    host_results
    rfl
  rw [e, shapeCast_a_1a_apply]

end Cert.KernelIdeal.Host

end
-- ==== Proof.SpecEntry.lean ====
/-
  The specification's functions at an explicit entry (P, q), in the arrangement the kernel computes them in:
  the three contractions added first and the three biases added apart. Regrouping six terms turns that into the
  three affine layers the specification adds.
-/
import proofs.«425039_j46299747451485_3_alg».proof.Proof.Spec

noncomputable section

namespace Cert.Spec

open Idealize.ShloMosaic Idealize.ShloMosaic.ValueIdx

/-- The output projection at entry (P, q). -/
theorem out_entry (io : Mat 16384 512) (Wo : Mat 64 512) (bo : Row 64) (P : Fin 16384) (q : Fin 64) :
    Ideal.tanh ((∑ k : Fin 512, io (ix2 P k) * Wo (ix2 q k)) + bo (ix1 q)) = outG io Wo bo (ix2 P q) := rfl

/-- The logistic function of the updated fast state at entry (P, q), from the contractions summed first and the
    biases summed apart. -/
theorem fast_entry (io fast : Mat 16384 512) (slow : Mat 16384 256)
    (Wf : Mat 512 512) (bf : Row 512) (Ws : Mat 512 256) (bs : Row 512) (Wi : Mat 512 512) (bi : Row 512)
    (P : Fin 16384) (q : Fin 512) :
    sg (c₁ * fast (ix2 P q)
        + Ideal.div ((((∑ k : Fin 512, fast (ix2 P k) * Wf (ix2 q k)) + (∑ k : Fin 256, slow (ix2 P k) * Ws (ix2 q k)))
              + (∑ k : Fin 512, io (ix2 P k) * Wi (ix2 q k)))
            + ((bf (ix1 q) + bs (ix1 q)) + bi (ix1 q))) c₂)
      = fastG io fast slow Wf bf Ws bs Wi bi (ix2 P q) := by
  rw [regroup]
  rfl

end Cert.Spec

end
-- ==== Proof.KIValue.lean ====
/-
  The four output arrays after the idealized kernel program's run, each as one function of the argument arrays.

  The grid has 16 points; point t handles rows 1024 t … 1024 t + 1023. Its blocks of io_h, fast_h and slow_h are
  those rows of the argument arrays; the stacked weight, the summed bias row, the output weight and the output bias
  row are fetched whole (block index 0 at every point) from the arrays the host operations wrote. What the point
  writes back to each output array is those rows of the specification's function (Spec.lean) of the argument arrays:
  the body's stored values read at an entry (KIPay.lean) over the blocks read at an entry (here) over the host-written
  arrays read at an entry (KIHost.lean), regrouped (SpecEntry.lean). The 16 blocks of 1024 rows cover the 16384
  rows, so each output array ends at the specification's function.
-/
import proofs.«425039_j46299747451485_3_alg».proof.Proof.KIFrame
import proofs.«425039_j46299747451485_3_alg».proof.Proof.KIPay
import proofs.«425039_j46299747451485_3_alg».proof.Proof.KIHost
import proofs.«425039_j46299747451485_3_alg».proof.Proof.SpecEntry
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand Cert.KernelIdeal.Host Cert.KernelIdeal.Pay Cert.Spec

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 16 points -/

/-- The row-blocked inputs: block index (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- The resident inputs: block index (0, 0). -/
theorem idx_res : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The outputs: block index (t, 0). -/
theorem idx_outs : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `p` of point `t`'s block is row `1024 t + p` of the array. -/
abbrev rowAt (t : Fin cfg0.N) (p : Fin 1024) : Fin 16384 :=
  ⟨1024 * t.val + p.val, by have := t.isLt; have hN : cfg0.N = 16 := N_0; have := p.isLt; omega⟩

/-! ## The input blocks read at an entry -/

/-- Point `t`'s block of io_h: rows 1024 t … 1024 t + 1023 of the argument array. -/
abbrev bIo (c : Dev nD) (t : Fin cfg0.N) : Vec Ideal S1024x512 .f32 := iblk m c 0 t

theorem bIo_apply (c : Dev nD) (t : Fin cfg0.N) (p : Fin 1024) (k : Fin 512) :
    bIo m c t (ix2 p k) = aIo m c (ix2 (rowAt t p) k) := by
  obtain ⟨e0, e1⟩ := (idx_rows t).1
  show V m c main_arg1 (((cfg0.win 0).blk t).view.emb (ix2 p k)) = _
  rw [V_main_arg1]
  refine congrArg (m (c, Proc.devRef .tc main_arg1)) (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 512 + 1 * k.val = k.val; rw [e1]; omega

/-- Point `t`'s block of fast_h: rows 1024 t … 1024 t + 1023 of the argument array. -/
abbrev bFast (c : Dev nD) (t : Fin cfg0.N) : Vec Ideal S1024x512 .f32 := iblk m c 1 t

theorem bFast_apply (c : Dev nD) (t : Fin cfg0.N) (p : Fin 1024) (k : Fin 512) :
    bFast m c t (ix2 p k) = aFast m c (ix2 (rowAt t p) k) := by
  obtain ⟨e0, e1⟩ := (idx_rows t).2.1
  show V m c main_arg2 (((cfg0.win 1).blk t).view.emb (ix2 p k)) = _
  rw [V_main_arg2]
  refine congrArg (m (c, Proc.devRef .tc main_arg2)) (funext fun a => Fin.ext ?_)
  match a with
  | ⟨0, _⟩ => show win0_1.index t (0 : Fin 2) * 1024 + 1 * p.val = 1024 * t.val + p.val; rw [e0]; omega
  | ⟨1, _⟩ => show win0_1.index t (1 : Fin 2) * 512 + 1 * k.val = k.val; rw [e1]; omega

/-- Point `t`'s block of slow_h: rows 1024 t … 1024 t + 1023 of the argument array. -/
abbrev bSlow (c : Dev nD) (t : Fin cfg0.N) : Vec Ideal S1024x256 .f32 := iblk m c 2 t

theorem bSlow_apply (c : Dev nD) (t : Fin cfg0.N) (p : Fin 1024) (k : Fin 256) :
    bSlow m c t (ix2 p k) = aSlow m c (ix2 (rowAt t p) k) := by
  obtain ⟨e0, e1⟩ := (idx_rows t).2.2
  show V m c main_arg3 (((cfg0.win 2).blk t).view.emb (ix2 p k)) = _
  rw [V_main_arg3]
  refine congrArg (m (c, Proc.devRef .tc main_arg3)) (funext fun a => Fin.ext ?_)
  match a with
  | ⟨0, _⟩ => show win0_2.index t (0 : Fin 2) * 1024 + 1 * p.val = 1024 * t.val + p.val; rw [e0]; omega
  | ⟨1, _⟩ => show win0_2.index t (1 : Fin 2) * 256 + 1 * k.val = k.val; rw [e1]; omega

/-! The resident operands: every point's block is the whole array the host operations wrote. -/

abbrev bWcat (c : Dev nD) (t : Fin cfg0.N) : Vec Ideal S1280x512 .bf16 := iblk m c 3 t

theorem bWcat_apply (c : Dev nD) (t : Fin cfg0.N) (k : Fin 1280) (q : Fin 512) :
    bWcat m c t (ix2 k q) = eWcat m c (ix2 k q) := by
  obtain ⟨e0, e1⟩ := (idx_res t).1
  show V m c (Pipeline.arrRef spec0 3) (((cfg0.win 3).blk t).view.emb (ix2 k q)) = _
  refine congrArg (V m c (Pipeline.arrRef spec0 3)) (funext fun a => Fin.ext ?_)
  match a with
  | ⟨0, _⟩ => show win0_3.index t (0 : Fin 2) * 1280 + 1 * k.val = k.val; rw [e0]; omega
  | ⟨1, _⟩ => show win0_3.index t (1 : Fin 2) * 512 + 1 * q.val = q.val; rw [e1]; omega

abbrev bBcat (c : Dev nD) (t : Fin cfg0.N) : Vec Ideal S1x512 .f32 := iblk m c 4 t

theorem bBcat_apply (c : Dev nD) (t : Fin cfg0.N) (k : Fin 1) (q : Fin 512) :
    bBcat m c t (ix2 k q) = eBcat m c (ix2 k q) := by
  obtain ⟨e0, e1⟩ := (idx_res t).2.1
  show V m c (Pipeline.arrRef spec0 4) (((cfg0.win 4).blk t).view.emb (ix2 k q)) = _
  refine congrArg (V m c (Pipeline.arrRef spec0 4)) (funext fun a => Fin.ext ?_)
  match a with
  | ⟨0, _⟩ => show win0_4.index t (0 : Fin 2) * 1 + 1 * k.val = k.val; rw [e0]; omega
  | ⟨1, _⟩ => show win0_4.index t (1 : Fin 2) * 512 + 1 * q.val = q.val; rw [e1]; omega

abbrev bWout (c : Dev nD) (t : Fin cfg0.N) : Vec Ideal S512x64 .bf16 := iblk m c 5 t

theorem bWout_apply (c : Dev nD) (t : Fin cfg0.N) (k : Fin 512) (q : Fin 64) :
    bWout m c t (ix2 k q) = eWout m c (ix2 k q) := by
  obtain ⟨e0, e1⟩ := (idx_res t).2.2.1
  show V m c (Pipeline.arrRef spec0 5) (((cfg0.win 5).blk t).view.emb (ix2 k q)) = _
  refine congrArg (V m c (Pipeline.arrRef spec0 5)) (funext fun a => Fin.ext ?_)
  match a with
  | ⟨0, _⟩ => show win0_5.index t (0 : Fin 2) * 512 + 1 * k.val = k.val; rw [e0]; omega
  | ⟨1, _⟩ => show win0_5.index t (1 : Fin 2) * 64 + 1 * q.val = q.val; rw [e1]; omega

abbrev bBout (c : Dev nD) (t : Fin cfg0.N) : Vec Ideal S1x64 .f32 := iblk m c 6 t

theorem bBout_apply (c : Dev nD) (t : Fin cfg0.N) (k : Fin 1) (q : Fin 64) :
    bBout m c t (ix2 k q) = eBout m c (ix2 k q) := by
  obtain ⟨e0, e1⟩ := (idx_res t).2.2.2
  show V m c (Pipeline.arrRef spec0 6) (((cfg0.win 6).blk t).view.emb (ix2 k q)) = _
  refine congrArg (V m c (Pipeline.arrRef spec0 6)) (funext fun a => Fin.ext ?_)
  match a with
  | ⟨0, _⟩ => show win0_6.index t (0 : Fin 2) * 1 + 1 * k.val = k.val; rw [e0]; omega
  | ⟨1, _⟩ => show win0_6.index t (1 : Fin 2) * 64 + 1 * q.val = q.val; rw [e1]; omega

/-! ## What a point's body stores, at an entry, as the specification's function at the array's entry -/

theorem blk7 (c : Dev nD) (t : Fin cfg0.N) (p : Fin 1024) (q : Fin 64) :
    k0_pay5 (F := Ideal) (bIo m c t) (bWout m c t) (bBout m c t) (ix2 p q)
      = outG (aIo m c) (aWo m c) (aBo m c) (ix2 (rowAt t p) q) := by
  have s : (∑ k : Fin 512, bIo m c t (ix2 p k) * bWout m c t (ix2 k q)) = ∑ k : Fin 512, aIo m c (ix2 (rowAt t p) k) * aWo m c (ix2 q k) :=
    Finset.sum_congr rfl fun k _ => by rw [bIo_apply, bWout_apply, wout_apply]
  rw [pay5_apply, s, bBout_apply, bout_apply]
  exact out_entry _ _ _ _ _

theorem blk8 (c : Dev nD) (t : Fin cfg0.N) (p : Fin 1024) (q : Fin 512) :
    k0_pay6 (F := Ideal) (bIo m c t) (ix2 p q) = sigG (aIo m c) (ix2 (rowAt t p) q) := by
  rw [pay6_apply, bIo_apply]
  rfl

theorem blk10 (c : Dev nD) (t : Fin cfg0.N) (p : Fin 1024) (q : Fin 256) :
    k0_pay2 (F := Ideal) (bSlow m c t) (ix2 p q) = sigG (aSlow m c) (ix2 (rowAt t p) q) := by
  rw [pay2_apply, bSlow_apply]
  rfl

theorem blk9 (c : Dev nD) (t : Fin cfg0.N) (p : Fin 1024) (q : Fin 512) :
    k0_pay1 (F := Ideal) (k0_pay4 (bIo m c t) (bFast m c t) (bSlow m c t) (bWcat m c t) (bBcat m c t)) (ix2 p q)
      = fastG (aIo m c) (aFast m c) (aSlow m c) (aWf m c) (aBf m c) (aWs m c) (aBs m c) (aWi m c) (aBi m c) (ix2 (rowAt t p) q) := by
  have s1 : (∑ k : Fin 512, bFast m c t (ix2 p k) * bWcat m c t (ix2 ⟨k.val, by omega⟩ q))
      = ∑ k : Fin 512, aFast m c (ix2 (rowAt t p) k) * aWf m c (ix2 q k) :=
    Finset.sum_congr rfl fun k _ => by rw [bFast_apply, bWcat_apply, wcat_fst]
  have s2 : (∑ k : Fin 256, bSlow m c t (ix2 p k) * bWcat m c t (ix2 ⟨512 + k.val, by omega⟩ q))
      = ∑ k : Fin 256, aSlow m c (ix2 (rowAt t p) k) * aWs m c (ix2 q k) :=
    Finset.sum_congr rfl fun k _ => by rw [bSlow_apply, bWcat_apply, wcat_snd]
  have s3 : (∑ k : Fin 512, bIo m c t (ix2 p k) * bWcat m c t (ix2 ⟨768 + k.val, by omega⟩ q))
      = ∑ k : Fin 512, aIo m c (ix2 (rowAt t p) k) * aWi m c (ix2 q k) :=
    Finset.sum_congr rfl fun k _ => by rw [bIo_apply, bWcat_apply, wcat_thd]
  rw [pay1_apply, pay4_apply, s1, s2, s3, bFast_apply, bBcat_apply, bcat_apply]
  exact fast_entry _ _ _ _ _ _ _ _ _ _ _

/-! ## What each point writes back -/

/-- An index inside a block, as its two coordinates below the literal extents. -/
theorem split2 {A B : ℕ} (j : (⟨2, ![A, B]⟩ : Shape).Idx) : ∃ (p : Fin A) (q : Fin B), j = ix2 p q :=
  ⟨⟨(j 0).val, (j 0).isLt⟩, ⟨(j 1).val, (j 1).isLt⟩, funext fun a => Fin.ext (by match a with | ⟨0, _⟩ => rfl | ⟨1, _⟩ => rfl)⟩

theorem flushed7_eq (c : Dev nD) (t : Fin cfg0.N) :
    (dats m 0 c).flushed 7 t = ((cfg0.win 7).blk t).view.read (Elt Ideal) (outG (aIo m c) (aWo m c) (aBo m c)) := by
  show (cfg0.win 7).cut (grid0.coords t) ((dats m 0 c).after 7 t) = _
  rw [after0_7]
  unfold out0_7
  rw [View.canon_unit_zero hz]
  simp only [View.ld_unit_zero (S := S1024x512) hz, View.ld_unit_zero (S := S512x64) hz, View.ld_unit_zero (S := S1x64) hz]
  obtain ⟨e0, e1⟩ := (idx_outs t).1
  funext j
  obtain ⟨p, q, rfl⟩ := split2 (A := 1024) (B := 64) j
  refine (blk7 m c t p q).trans ?_
  show _ = outG (aIo m c) (aWo m c) (aBo m c) (((cfg0.win 7).blk t).view.emb (ix2 p q))
  refine congrArg (outG (aIo m c) (aWo m c) (aBo m c)) (funext fun a => Fin.ext ?_)
  match a with
  | ⟨0, _⟩ => show 1024 * t.val + p.val = win0_7.index t (0 : Fin 2) * 1024 + 1 * p.val; rw [e0]; omega
  | ⟨1, _⟩ => show q.val = win0_7.index t (1 : Fin 2) * 64 + 1 * q.val; rw [e1]; omega

theorem flushed8_eq (c : Dev nD) (t : Fin cfg0.N) :
    (dats m 0 c).flushed 8 t = ((cfg0.win 8).blk t).view.read (Elt Ideal) (sigG (aIo m c)) := by
  show (cfg0.win 8).cut (grid0.coords t) ((dats m 0 c).after 8 t) = _
  rw [after0_8]
  unfold out0_8
  rw [View.canon_unit_zero hz]
  simp only [View.ld_unit_zero (S := S1024x512) hz]
  obtain ⟨e0, e1⟩ := (idx_outs t).2.1
  funext j
  obtain ⟨p, q, rfl⟩ := split2 (A := 1024) (B := 512) j
  refine (blk8 m c t p q).trans ?_
  show _ = sigG (aIo m c) (((cfg0.win 8).blk t).view.emb (ix2 p q))
  refine congrArg (sigG (aIo m c)) (funext fun a => Fin.ext ?_)
  match a with
  | ⟨0, _⟩ => show 1024 * t.val + p.val = win0_8.index t (0 : Fin 2) * 1024 + 1 * p.val; rw [e0]; omega
  | ⟨1, _⟩ => show q.val = win0_8.index t (1 : Fin 2) * 512 + 1 * q.val; rw [e1]; omega

theorem flushed9_eq (c : Dev nD) (t : Fin cfg0.N) :
    (dats m 0 c).flushed 9 t = ((cfg0.win 9).blk t).view.read (Elt Ideal)
      (fastG (aIo m c) (aFast m c) (aSlow m c) (aWf m c) (aBf m c) (aWs m c) (aBs m c) (aWi m c) (aBi m c)) := by
  show (cfg0.win 9).cut (grid0.coords t) ((dats m 0 c).after 9 t) = _
  rw [after0_9]
  unfold out0_9
  rw [View.canon_unit_zero hz]
  simp only [View.ld_unit_zero (S := S1024x512) hz, View.ld_unit_zero (S := S1024x256) hz, View.ld_unit_zero (S := S1280x512) hz,
    View.ld_unit_zero (S := S1x512) hz]
  obtain ⟨e0, e1⟩ := (idx_outs t).2.2.1
  funext j
  obtain ⟨p, q, rfl⟩ := split2 (A := 1024) (B := 512) j
  refine (blk9 m c t p q).trans ?_
  show _ = fastG (aIo m c) (aFast m c) (aSlow m c) (aWf m c) (aBf m c) (aWs m c) (aBs m c) (aWi m c) (aBi m c) (((cfg0.win 9).blk t).view.emb (ix2 p q))
  refine congrArg (fastG (aIo m c) (aFast m c) (aSlow m c) (aWf m c) (aBf m c) (aWs m c) (aBs m c) (aWi m c) (aBi m c)) (funext fun a => Fin.ext ?_)
  match a with
  | ⟨0, _⟩ => show 1024 * t.val + p.val = win0_9.index t (0 : Fin 2) * 1024 + 1 * p.val; rw [e0]; omega
  | ⟨1, _⟩ => show q.val = win0_9.index t (1 : Fin 2) * 512 + 1 * q.val; rw [e1]; omega

theorem flushed10_eq (c : Dev nD) (t : Fin cfg0.N) :
    (dats m 0 c).flushed 10 t = ((cfg0.win 10).blk t).view.read (Elt Ideal) (sigG (aSlow m c)) := by
  show (cfg0.win 10).cut (grid0.coords t) ((dats m 0 c).after 10 t) = _
  rw [after0_10]
  unfold out0_10
  rw [View.canon_unit_zero hz]
  simp only [View.ld_unit_zero (S := S1024x256) hz]
  obtain ⟨e0, e1⟩ := (idx_outs t).2.2.2
  funext j
  obtain ⟨p, q, rfl⟩ := split2 (A := 1024) (B := 256) j
  refine (blk10 m c t p q).trans ?_
  show _ = sigG (aSlow m c) (((cfg0.win 10).blk t).view.emb (ix2 p q))
  refine congrArg (sigG (aSlow m c)) (funext fun a => Fin.ext ?_)
  match a with
  | ⟨0, _⟩ => show 1024 * t.val + p.val = win0_10.index t (0 : Fin 2) * 1024 + 1 * p.val; rw [e0]; omega
  | ⟨1, _⟩ => show q.val = win0_10.index t (1 : Fin 2) * 256 + 1 * q.val; rw [e1]; omega

/-! ## The blocks cover the arrays -/

/-- An index of the array is in point `t`'s block iff each coordinate is in the block's range on its axis. -/
theorem mem_blk7 (t : Fin cfg0.N) (i : S16384x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v11_0).slice (win0_7.rect t)).set ↔ _
  rw [View.set_slice_whole, Rect.mem_set_unit]
  exact Iff.rfl

/-- Every row lies in the block of the point numbered by the row's quotient by 1024. -/
theorem cover7 (i : S16384x64.Idx) : ∃ t : Fin cfg0.N, (cfg0.win 7).flush t = true ∧ i ∈ ((cfg0.win 7).blk t).view.set := by
  have hi0 : (i 0).val < 16384 := (i 0).isLt
  have hi1 : (i 1).val < 64 := (i 1).isLt
  have hN : cfg0.N = 16 := N_0
  refine ⟨⟨(i 0).val / 1024, by omega⟩, flush0_7 _, ?_⟩
  obtain ⟨e0, e1⟩ := (idx_outs ⟨(i 0).val / 1024, by omega⟩).1
  rw [mem_blk7]
  intro a
  match a with
  | ⟨0, _⟩ => show win0_7.index _ (0 : Fin 2) * 1024 ≤ (i 0).val ∧ (i 0).val < win0_7.index _ (0 : Fin 2) * 1024 + 1024; rw [e0]; show (i 0).val / 1024 * 1024 ≤ (i 0).val ∧ (i 0).val < (i 0).val / 1024 * 1024 + 1024; omega
  | ⟨1, _⟩ => show win0_7.index _ (1 : Fin 2) * 64 ≤ (i 1).val ∧ (i 1).val < win0_7.index _ (1 : Fin 2) * 64 + 64; rw [e1]; omega

/-- An index of the array is in point `t`'s block iff each coordinate is in the block's range on its axis. -/
theorem mem_blk8 (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v11_1).slice (win0_8.rect t)).set ↔ _
  rw [View.set_slice_whole, Rect.mem_set_unit]
  exact Iff.rfl

/-- Every row lies in the block of the point numbered by the row's quotient by 1024. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 16 := N_0
  refine ⟨⟨(i 0).val / 1024, by omega⟩, flush0_8 _, ?_⟩
  obtain ⟨e0, e1⟩ := (idx_outs ⟨(i 0).val / 1024, by omega⟩).2.1
  rw [mem_blk8]
  intro a
  match a with
  | ⟨0, _⟩ => show win0_8.index _ (0 : Fin 2) * 1024 ≤ (i 0).val ∧ (i 0).val < win0_8.index _ (0 : Fin 2) * 1024 + 1024; rw [e0]; show (i 0).val / 1024 * 1024 ≤ (i 0).val ∧ (i 0).val < (i 0).val / 1024 * 1024 + 1024; omega
  | ⟨1, _⟩ => show win0_8.index _ (1 : Fin 2) * 512 ≤ (i 1).val ∧ (i 1).val < win0_8.index _ (1 : Fin 2) * 512 + 512; rw [e1]; omega

/-- An index of the array is in point `t`'s block iff each coordinate is in the block's range on its axis. -/
theorem mem_blk9 (t : Fin cfg0.N) (i : S16384x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v11_2).slice (win0_9.rect t)).set ↔ _
  rw [View.set_slice_whole, Rect.mem_set_unit]
  exact Iff.rfl

/-- Every row lies in the block of the point numbered by the row's quotient by 1024. -/
theorem cover9 (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  have hN : cfg0.N = 16 := N_0
  refine ⟨⟨(i 0).val / 1024, by omega⟩, flush0_9 _, ?_⟩
  obtain ⟨e0, e1⟩ := (idx_outs ⟨(i 0).val / 1024, by omega⟩).2.2.1
  rw [mem_blk9]
  intro a
  match a with
  | ⟨0, _⟩ => show win0_9.index _ (0 : Fin 2) * 1024 ≤ (i 0).val ∧ (i 0).val < win0_9.index _ (0 : Fin 2) * 1024 + 1024; rw [e0]; show (i 0).val / 1024 * 1024 ≤ (i 0).val ∧ (i 0).val < (i 0).val / 1024 * 1024 + 1024; omega
  | ⟨1, _⟩ => show win0_9.index _ (1 : Fin 2) * 512 ≤ (i 1).val ∧ (i 1).val < win0_9.index _ (1 : Fin 2) * 512 + 512; rw [e1]; omega

/-- An index of the array is in point `t`'s block iff each coordinate is in the block's range on its axis. -/
theorem mem_blk10 (t : Fin cfg0.N) (i : S16384x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v11_3).slice (win0_10.rect t)).set ↔ _
  rw [View.set_slice_whole, Rect.mem_set_unit]
  exact Iff.rfl

/-- Every row lies in the block of the point numbered by the row's quotient by 1024. -/
theorem cover10 (i : S16384x256.Idx) : ∃ t : Fin cfg0.N, (cfg0.win 10).flush t = true ∧ i ∈ ((cfg0.win 10).blk t).view.set := by
  have hi0 : (i 0).val < 16384 := (i 0).isLt
  have hi1 : (i 1).val < 256 := (i 1).isLt
  have hN : cfg0.N = 16 := N_0
  refine ⟨⟨(i 0).val / 1024, by omega⟩, flush0_10 _, ?_⟩
  obtain ⟨e0, e1⟩ := (idx_outs ⟨(i 0).val / 1024, by omega⟩).2.2.2
  rw [mem_blk10]
  intro a
  match a with
  | ⟨0, _⟩ => show win0_10.index _ (0 : Fin 2) * 1024 ≤ (i 0).val ∧ (i 0).val < win0_10.index _ (0 : Fin 2) * 1024 + 1024; rw [e0]; show (i 0).val / 1024 * 1024 ≤ (i 0).val ∧ (i 0).val < (i 0).val / 1024 * 1024 + 1024; omega
  | ⟨1, _⟩ => show win0_10.index _ (1 : Fin 2) * 256 ≤ (i 1).val ∧ (i 1).val < win0_10.index _ (1 : Fin 2) * 256 + 256; rw [e1]; omega

/-! ## The arrays after the run -/

theorem final7 (c : Dev nD) : (dats m 0 c).arrAt 7 cfg0.N = outG (aIo m c) (aWo m c) (aBo m c) :=
  (dats m 0 c).arrAt_eq_of_cover 7 (outG (aIo m c) (aWo m c) (aBo m c)) (fun t _ => flushed7_eq m c t) cover7

theorem final8 (c : Dev nD) : (dats m 0 c).arrAt 8 cfg0.N = sigG (aIo m c) :=
  (dats m 0 c).arrAt_eq_of_cover 8 (sigG (aIo m c)) (fun t _ => flushed8_eq m c t) cover8

theorem final9 (c : Dev nD) : (dats m 0 c).arrAt 9 cfg0.N
    = fastG (aIo m c) (aFast m c) (aSlow m c) (aWf m c) (aBf m c) (aWs m c) (aBs m c) (aWi m c) (aBi m c) :=
  (dats m 0 c).arrAt_eq_of_cover 9 (fastG (aIo m c) (aFast m c) (aSlow m c) (aWf m c) (aBf m c) (aWs m c) (aBs m c) (aWi m c) (aBi m c))
    (fun t _ => flushed9_eq m c t) cover9

theorem final10 (c : Dev nD) : (dats m 0 c).arrAt 10 cfg0.N = sigG (aSlow m c) :=
  (dats m 0 c).arrAt_eq_of_cover 10 (sigG (aSlow m c)) (fun t _ => flushed10_eq m c t) cover10

/-! ## The run, read -/

/-- Every weakly fair execution ends with the four result arrays at the specification's functions of the argument
    arrays, and the argument arrays as launched. -/
theorem run : θ_run defs (onTc (τ := τ) (main (F := Ideal))) ⟨m, fun _ => 0, ρ⟩ (fun r => ∀ c : Dev nD,
      r.2.mem ((c.tc : Thread nD τ).loc main_v11_0) = outG (aIo m c) (aWo m c) (aBo m c)
      ∧ r.2.mem ((c.tc : Thread nD τ).loc main_v11_1) = sigG (aIo m c)
      ∧ r.2.mem ((c.tc : Thread nD τ).loc main_v11_2)
          = fastG (aIo m c) (aFast m c) (aSlow m c) (aWf m c) (aBf m c) (aWs m c) (aBs m c) (aWi m c) (aBi m c)
      ∧ r.2.mem ((c.tc : Thread nD τ).loc main_v11_3) = sigG (aSlow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨((h c).1 7).trans (final7 m c), ((h c).1 8).trans (final8 m c),
      ((h c).1 9).trans (final9 m c), ((h c).1 10).trans (final10 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩)
    (run_main m ρ)

end Cert.KernelIdeal.Val

end
-- ==== Proof.RefSide.lean ====
/-
  The reference program's four results, each read index by index off its run: the output projection under tanh,
  and the three logistic values 1 / (1 + e^(-x)) of io_h, of the updated fast state and of slow_h.
-/
import proofs.«425039_j46299747451485_3_alg».proof.Proof.Gen.ReferenceIdeal.Run
import proofs.«425039_j46299747451485_3_alg».proof.Proof.Gen.ReferenceIdeal.Read
import proofs.«425039_j46299747451485_3_alg».proof.Proof.Spec

noncomputable section

namespace Cert.ReferenceIdeal.RefSide

open Cert.ReferenceIdeal Cert.ReferenceIdeal.Read Idealize.ShloMosaic Idealize.ShloMosaic.ValueIdx Cert.Spec

/-! ## The logistic value of an input array

  The program negates the entry, exponentiates, adds the literal 1 and divides the literal 1 by the sum: that is
  `sg` of the entry, once the literal 1 is read as the number 1. -/

/-- sig_io: the logistic function of io_h, entry by entry. -/
theorem sigio_eq (x1 : (⟨S16384x512, .f32⟩ : BufTy).Contents (Elt Ideal)) :
    Read.val_main_v33 (F := Ideal) x1 = sigG x1 := by
  funext i
  rw [val_main_v33_apply, val_main_v32_apply, val_main_cst_2_apply, val_main_v31_apply, val_main_v30_apply,
    val_main_cst_1_apply, val_main_v29_apply, val_main_v28_apply]
  simp only [Ideal.hostDivf_def, Ideal.addf_def, Ideal.hostUnary_exp_def, Ideal.hostNegf_def, Ideal.negf_def,
    Ideal.ofBits_def, ofBits_one]
  rfl

/-- sig_slow: the logistic function of slow_h, entry by entry. -/
theorem sigslow_eq (x3 : (⟨S16384x256, .f32⟩ : BufTy).Contents (Elt Ideal)) :
    Read.val_main_v45 (F := Ideal) x3 = sigG x3 := by
  funext i
  rw [val_main_v45_apply, val_main_v44_apply, val_main_cst_6_apply, val_main_v43_apply, val_main_v42_apply,
    val_main_cst_5_apply, val_main_v41_apply, val_main_v40_apply]
  simp only [Ideal.hostDivf_def, Ideal.addf_def, Ideal.hostUnary_exp_def, Ideal.hostNegf_def, Ideal.negf_def,
    Ideal.ofBits_def, ofBits_one]
  rfl

/-! ## The output projection

  Entry (p, q) of the product of io_h with the transposed weight is the sum over k of io_h (p, k) times W (q, k): the
  transposition turns the weight's position (k, q) back into (q, k). The bias, broadcast first to one row and then to
  every row, is read at q. -/

/-- output: tanh of io_h · W_io2outᵀ + b_io2out. -/
theorem out_eq (x1 : (⟨S16384x512, .f32⟩ : BufTy).Contents (Elt Ideal)) (x20 : (⟨S64x512, .f32⟩ : BufTy).Contents (Elt Ideal))
    (x21 : (⟨S64, .f32⟩ : BufTy).Contents (Elt Ideal)) :
    Read.val_main_v27 (F := Ideal) x1 x20 x21 = outG x1 x20 x21 := by
  funext i
  -- the left operand's position: row p, column k
  have el : ∀ k : Fin 512, lidx_main_v23 i k = ix2 (rowOf i) k := fun k =>
    funext fun a => Fin.ext (by match a with | ⟨0, _⟩ => rfl | ⟨1, _⟩ => rfl)
  -- the weight's position behind the transposition: row q, column k
  have er : ∀ k : Fin 512, idx_main_v22 (ridx_main_v23 i k) = ix2 (colOf i) k := fun k =>
    funext fun a => Fin.ext (by match a with | ⟨0, _⟩ => rfl | ⟨1, _⟩ => rfl)
  -- the bias's position behind the two broadcasts: q
  have eb : idx_main_v24 (idx_main_v25 i) = ix1 (colOf i) :=
    funext fun a => Fin.ext (by match a with | ⟨0, _⟩ => rfl)
  rw [val_main_v27_apply, val_main_v26_apply, val_main_v23_apply, val_main_v25_apply, val_main_v24_apply]
  simp only [val_main_v22_apply, el, er, eb, Ideal.hostUnary_tanh_def, Ideal.addf_def]
  rfl

/-! ## The logistic value of the updated fast state

  The update is  c₁ * fast_h + ((fast_h · W_f2fᵀ + b_f2f) + (slow_h · W_s2fᵀ + b_s2f) + (io_h · W_in2fᵀ + b_in2f)) / c₂,
  the three layers added in exactly this grouping; each layer is read as the output projection is (a sum over k of a
  row of the state against a row of the weight, plus the bias at the column). The two literals c₁ and c₂ stay the
  words the program spells. -/

/-- sig_fast: the logistic function of the leaky update of the fast state. -/
theorem sigfast_eq (x1 x2 : (⟨S16384x512, .f32⟩ : BufTy).Contents (Elt Ideal)) (x3 : (⟨S16384x256, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (x14 : (⟨S512x256, .f32⟩ : BufTy).Contents (Elt Ideal)) (x15 : (⟨S512, .f32⟩ : BufTy).Contents (Elt Ideal)) :
    Read.val_main_v39 (F := Ideal) x1 x2 x3 x6 x7 x8 x9 x14 x15 = fastG x1 x2 x3 x8 x9 x14 x15 x6 x7 := by
  funext i
  -- fast_h against W_f2f, and b_f2f
  have el3 : ∀ k : Fin 512, lidx_main_v3 i k = ix2 (rowOf i) k := fun k =>
    funext fun a => Fin.ext (by match a with | ⟨0, _⟩ => rfl | ⟨1, _⟩ => rfl)
  have er3 : ∀ k : Fin 512, idx_main_v2 (ridx_main_v3 i k) = ix2 (colOf i) k := fun k =>
    funext fun a => Fin.ext (by match a with | ⟨0, _⟩ => rfl | ⟨1, _⟩ => rfl)
  have eb5 : idx_main_v4 (idx_main_v5 i) = ix1 (colOf i) :=
    funext fun a => Fin.ext (by match a with | ⟨0, _⟩ => rfl)
  -- slow_h against W_s2f, and b_s2f
  have el8 : ∀ k : Fin 256, lidx_main_v8 i k = ix2 (rowOf i) k := fun k =>
    funext fun a => Fin.ext (by match a with | ⟨0, _⟩ => rfl | ⟨1, _⟩ => rfl)
  have er8 : ∀ k : Fin 256, idx_main_v7 (ridx_main_v8 i k) = ix2 (colOf i) k := fun k =>
    funext fun a => Fin.ext (by match a with | ⟨0, _⟩ => rfl | ⟨1, _⟩ => rfl)
  have eb10 : idx_main_v9 (idx_main_v10 i) = ix1 (colOf i) :=
    funext fun a => Fin.ext (by match a with | ⟨0, _⟩ => rfl)
  -- io_h against W_in2f, and b_in2f
  have el14 : ∀ k : Fin 512, lidx_main_v14 i k = ix2 (rowOf i) k := fun k =>
    funext fun a => Fin.ext (by match a with | ⟨0, _⟩ => rfl | ⟨1, _⟩ => rfl)
  have er14 : ∀ k : Fin 512, idx_main_v13 (ridx_main_v14 i k) = ix2 (colOf i) k := fun k =>
    funext fun a => Fin.ext (by match a with | ⟨0, _⟩ => rfl | ⟨1, _⟩ => rfl)
  have eb16 : idx_main_v15 (idx_main_v16 i) = ix1 (colOf i) :=
    funext fun a => Fin.ext (by match a with | ⟨0, _⟩ => rfl)
  rw [val_main_v39_apply, val_main_v38_apply, val_main_cst_4_apply, val_main_v37_apply, val_main_v36_apply,
    val_main_cst_3_apply, val_main_v35_apply, val_main_v34_apply, val_main_v21_apply, val_main_v1_apply,
    val_main_v0_apply, val_main_cst_apply, val_main_v20_apply, val_main_v19_apply, val_main_cst_0_apply,
    val_main_v18_apply, val_main_v12_apply, val_main_v6_apply, val_main_v3_apply, val_main_v5_apply,
    val_main_v4_apply, val_main_v11_apply, val_main_v8_apply, val_main_v10_apply, val_main_v9_apply,
    val_main_v17_apply, val_main_v14_apply, val_main_v16_apply, val_main_v15_apply]
  simp only [val_main_v2_apply, val_main_v7_apply, val_main_v13_apply, el3, er3, eb5, el8, er8, eb10, el14, er14, eb16,
    Ideal.hostDivf_def, Ideal.addf_def, Ideal.mulf_def, Ideal.hostUnary_exp_def, Ideal.hostNegf_def, Ideal.negf_def,
    Ideal.ofBits_def, ofBits_one]
  rfl

end Cert.ReferenceIdeal.RefSide

end
-- ==== Proof.lean ====
/-
  The certificate of the multi-timescale recurrent cell's fast-state update: a kernel on a grid of 16 row blocks
  against its plain reference, equal over the extended reals.

  Both programs compute, from io_h, fast_h, slow_h and four affine layers x · Wᵀ + b,

      output   = tanh (io_h · W_io2outᵀ + b_io2out),      sig_io = logistic io_h,      sig_slow = logistic slow_h,
      sig_fast = logistic (c₁ fast_h + ((fast_h · W_f2fᵀ + b_f2f) + (slow_h · W_s2fᵀ + b_s2f) + (io_h · W_in2fᵀ + b_in2f)) / c₂).

  The kernel arranges this differently: it multiplies the row [fast_h | slow_h | io_h] of 1280 entries by the three
  transposed weights stacked one above the other, adds the three biases summed beforehand, and writes the logistic
  function as (1/2)(1 + tanh (x/2)). Three laws join the two arrangements (Proof/Spec.lean): a sum over 1280
  positions is the sum of its three stretches; six terms regrouped; and (1/2)(1 + tanh (x/2)) = 1 / (1 + e^(-x)) for
  every extended real x, the infinities included. None of them needs the inputs to be finite, so the precondition is
  never opened. A change of float format is the identity at the ideal values.

  The frames of the two kernel programs are Proof/KFrame.lean and Proof/KIFrame.lean (the host operations, then the one
  region through the launch theorem, the body run once at a symbolic point); the reference's frame is its run with the
  results dropped. The kernel's four result arrays as functions of the arguments are Proof/KIValue.lean, the
  reference's Proof/RefSide.lean; here the two runs are stated side by side over the same four functions.
-/
import proofs.«425039_j46299747451485_3_alg».proof.Defs
import proofs.«425039_j46299747451485_3_alg».proof.Proof.Gen.Kernel
import proofs.«425039_j46299747451485_3_alg».proof.Proof.Gen.KernelIdeal
import proofs.«425039_j46299747451485_3_alg».proof.Proof.Gen.ReferenceIdeal
import proofs.«425039_j46299747451485_3_alg».proof.Proof.Gen.Pre_finite_inputs
import proofs.«425039_j46299747451485_3_alg».proof.Proof.KFrame
import proofs.«425039_j46299747451485_3_alg».proof.Proof.KIFrame
import proofs.«425039_j46299747451485_3_alg».proof.Proof.KIValue
import proofs.«425039_j46299747451485_3_alg».proof.Proof.RefSide
import Idealize.ShloMosaic.Adequacy
import Idealize.ShloMosaic.Init

noncomputable section

namespace Cert.Proof

open Idealize.ShloMosaic Idealize.SL.Sem Cert.Spec

section
variable [Cert.Kernel.Facts] [Cert.KernelIdeal.Facts] [Cert.ReferenceIdeal.Facts] [Cert.Pre_finite_inputs.Facts]

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's run ends with its results at their terms and its arguments as launched: drop the results. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both programs end with the four result arrays at the same functions of
    the arguments: the kernel's by its blocks covering the arrays, the reference's by its operations read one by one. -/
theorem algebraic : Cert.algebraic_KernelIdeal_ReferenceIdeal := by
  intro m ρ m' ρ' _ hagree
  refine ⟨fun c => outG (Cert.KernelIdeal.Host.aIo m c) (Cert.KernelIdeal.Host.aWo m c) (Cert.KernelIdeal.Host.aBo m c),
    fun c => sigG (Cert.KernelIdeal.Host.aIo m c),
    fun c => fastG (Cert.KernelIdeal.Host.aIo m c) (Cert.KernelIdeal.Host.aFast m c) (Cert.KernelIdeal.Host.aSlow m c)
      (Cert.KernelIdeal.Host.aWf m c) (Cert.KernelIdeal.Host.aBf m c) (Cert.KernelIdeal.Host.aWs m c) (Cert.KernelIdeal.Host.aBs m c)
      (Cert.KernelIdeal.Host.aWi m c) (Cert.KernelIdeal.Host.aBi m c),
    fun c => sigG (Cert.KernelIdeal.Host.aSlow m c),
    Cert.KernelIdeal.Val.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17, h18, h19, h20, h21⟩ := hagree c
  refine ⟨(h c).1.trans ?_, (h c).2.1.trans ?_, (h c).2.2.1.trans ?_, (h c).2.2.2.1.trans ?_, (h c).2.2.2.2⟩
  · rw [h1, h20, h21]
    exact (Cert.ReferenceIdeal.Read.val_main_v27_eq _ _ _).trans (Cert.ReferenceIdeal.RefSide.out_eq _ _ _)
  · rw [h1]
    exact (Cert.ReferenceIdeal.Read.val_main_v33_eq _).trans (Cert.ReferenceIdeal.RefSide.sigio_eq _)
  · rw [h1, h2, h3, h6, h7, h8, h9, h14, h15]
    exact (Cert.ReferenceIdeal.Read.val_main_v39_eq _ _ _ _ _ _ _ _ _).trans (Cert.ReferenceIdeal.RefSide.sigfast_eq _ _ _ _ _ _ _ _ _)
  · rw [h3]
    exact (Cert.ReferenceIdeal.Read.val_main_v45_eq _).trans (Cert.ReferenceIdeal.RefSide.sigslow_eq _)

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
